-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S1600000 : Shape := ⟨1, ![1600000]⟩
abbrev S24x128 : Shape := ⟨2, ![24, 128]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S24x128 : S_.BroadcastsInDim S24x128 (![] : Fin 0 → Fin S24x128.rank)
  reducesTo_S24x128_S_d0_1 : S24x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg1 : IVec S100000 32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S100000 32 := broadcastInDim S100000 ![] bcast_S_S100000 main_c_22
  let main_v60 : IVec S100000 1 := cmpi .sge main_arg1 main_v59
  let main_c_23 : IVec S_ 32 := constantI S_ 32 24#32
  let main_v61 : IVec S100000 32 := broadcastInDim S100000 ![] bcast_S_S100000 main_c_23
  let main_v62 : IVec S100000 1 := cmpi .slt main_arg1 main_v61
  let main_v63 : IVec S100000 1 := andi main_v60 main_v62
  let main_c_24 : IVec S_ 1 := constantI S_ 1 1#1
  let main_v64 : IVec S_ 1 := (fun x v => Host.reduce IntOp.andi x v reducesTo_S100000_S_d0 h_S_) main_v63 main_c_24
  let main_v65 : IVec S_ 1 := andi main_v58 main_v64
  main_v65

def fn_part2 {F : FTy → Type} [FloatOps F] (main_arg1 : IVec S100000 32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg1 main_arg14 main_v48 main_v49 main_v50

def fn_part1 {F : FTy → Type} [FloatOps F] (main_arg1 : IVec S100000 32) (main_arg7 : FVec F S512 .f32) (main_arg8 : FVec F S512 .f32) (main_arg9 : FVec F S512x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg9
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg1 main_arg10 main_arg11 main_arg12 main_arg13 main_arg14 main_v33

def fn {F : FTy → Type} [FloatOps F] (main_arg0 : FVec F S100000x128 .f32) (main_arg1 : IVec S100000 32) (main_arg2 : IVec S1600000 32) (main_arg3 : IVec S1600000 32) (main_arg4 : FVec F S24x128 .f32) (main_arg5 : FVec F S256x512 .f32) (main_arg6 : FVec F S512 .f32) (main_arg7 : FVec F S512 .f32) (main_arg8 : FVec F S512 .f32) (main_arg9 : FVec F S512x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S24x128 .f32 := Host.absf main_arg4
  let main_cst_0 : FVec F S_ .f32 := constant S_ .f32 0x7F800000#32
  let main_v5 : FVec F S24x128 .f32 := broadcastInDim S24x128 ![] bcast_S_S24x128 main_cst_0
  let main_v6 : IVec S24x128 1 := cmpf .olt main_v4 main_v5
  let main_c_1 : IVec S_ 1 := constantI S_ 1 1#1
  let main_v7 : IVec S_ 1 := (fun x v => Host.reduce IntOp.andi x v reducesTo_S24x128_S_d0_1 h_S_) main_v6 main_c_1
  let main_v8 : IVec S_ 1 := andi main_v3 main_v7
  let main_v9 : FVec F S256x512 .f32 := Host.absf main_arg5
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg7 main_arg8 main_arg9 main_arg10 main_arg11 main_arg12 main_arg13 main_arg14 main_v13 main_v16
-- ==== Kernel.lean ====
abbrev S100000x128 : Shape := ⟨2, ![100000, 128]⟩
abbrev S100000 : Shape := ⟨1, ![100000]⟩
abbrev S1600000 : Shape := ⟨1, ![1600000]⟩
abbrev S24x128 : Shape := ⟨2, ![24, 128]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S100000x1 : Shape := ⟨2, ![100000, 1]⟩
abbrev S128x512 : Shape := ⟨2, ![128, 512]⟩
abbrev S1x512 : Shape := ⟨2, ![1, 512]⟩
abbrev S1x128 : Shape := ⟨2, ![1, 128]⟩
abbrev S2000x128 : Shape := ⟨2, ![2000, 128]⟩
abbrev S2000x1 : Shape := ⟨2, ![2000, 1]⟩
abbrev S2000x512 : Shape := ⟨2, ![2000, 512]⟩
abbrev S2000 : Shape := ⟨1, ![2000]⟩
abbrev S1600000x128 : Shape := ⟨2, ![1600000, 128]⟩
abbrev S5000x128 : Shape := ⟨2, ![5000, 128]⟩
abbrev S5000x1 : Shape := ⟨2, ![5000, 1]⟩

abbrev nBuf : Space → Nat
  | .hbm => 92
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1600000, .i32⟩
  | .hbm, ⟨3, _⟩ => ⟨S1600000, .i32⟩
  | .hbm, ⟨4, _⟩ => ⟨S24x128, .f32⟩
  | .hbm, ⟨5, _⟩ => ⟨S256x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x1, .i32⟩
  | .hbm, ⟨50, _⟩ => ⟨S_, .i32⟩
  | .hbm, ⟨51, _⟩ => ⟨S_, .f32⟩
  | .hbm, ⟨52, _⟩ => ⟨S128x128, .f32⟩
  | .hbm, ⟨53, _⟩ => ⟨S128x512, .f32⟩
  | .hbm, ⟨54, _⟩ => ⟨S128x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x128, .f32⟩
  | .hbm, ⟨59, _⟩ => ⟨S100000x128, .bf16⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .bf16⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S1x128, .f32⟩
  | .hbm, ⟨75, _⟩ => ⟨S100000x128, .bf16⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .bf16⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S1x128, .f32⟩
  | .hbm, ⟨91, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x512, .f32⟩
  | .local _ .vmem, ⟨8, _⟩ => ⟨S128x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S128x128, .f32⟩
  | .local _ .vmem, ⟨23, _⟩ => ⟨S1x128, .f32⟩
  | .local _ .vmem, ⟨24, _⟩ => ⟨S2000x128, .bf16⟩
  | .local _ .vmem, ⟨25, _⟩ => ⟨S2000x128, .bf16⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v12 : Ref sig .tc := ⟨.hbm, 35, rfl⟩
abbrev main_v13 : Ref sig .tc := ⟨.hbm, 36, rfl⟩
abbrev main_cst_5 : Ref sig .tc := ⟨.hbm, 37, rfl⟩
abbrev main_v14 : Ref sig .tc := ⟨.hbm, 38, rfl⟩
abbrev main_v15 : Ref sig .tc := ⟨.hbm, 39, rfl⟩
abbrev main_cst_6 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_call2_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_8 : Ref sig .tc := ⟨.hbm, 60, rfl⟩
abbrev main_v30 : Ref sig .tc := ⟨.hbm, 61, rfl⟩
abbrev main_v31 : Ref sig .tc := ⟨.hbm, 62, rfl⟩
abbrev main_c_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_11 : Ref sig .tc := ⟨.hbm, 76, rfl⟩
abbrev main_v43 : Ref sig .tc := ⟨.hbm, 77, rfl⟩
abbrev main_v44 : Ref sig .tc := ⟨.hbm, 78, rfl⟩
abbrev main_c_12 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_13 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  pads_S24x128_S128x128_01040_000 : S24x128.Pads (![0, 0] : Fin 2 → Nat) ![104, 0] ![0, 0] S128x128
  h_S_ : 0 < S_.numel
  slices_S256x512_S128x512_0_0 : S256x512.Slices ![0, 0] S128x512
  slices_S256x512_S128x512_128_0 : S256x512.Slices ![128, 0] S128x512
  shapeCasts_S512_S1x512 : S512.ShapeCasts S1x512
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S2000x128_S2000x128 : S2000x128.ShapeCasts S2000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .f32 = 32 ∨ (Rect.block (s := S512x128) S512x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .bf16 = 32 ∨ (Rect.block (s := S100000x128) S2000x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .bf16 = 32 ∨ (Rect.block (s := S100000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v29) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000 : Shape := ⟨1, ![100000]⟩
abbrev S1600000 : Shape := ⟨1, ![1600000]⟩
abbrev S24x128 : Shape := ⟨2, ![24, 128]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x128 : Shape := ⟨2, ![128, 128]⟩
abbrev S_ : Shape := ⟨0, ![]⟩
abbrev S100000x1 : Shape := ⟨2, ![100000, 1]⟩
abbrev S100000x256 : Shape := ⟨2, ![100000, 256]⟩
abbrev S100000x512 : Shape := ⟨2, ![100000, 512]⟩
abbrev S1x512 : Shape := ⟨2, ![1, 512]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S100000, .i32⟩
  | 2 => ⟨S1600000, .i32⟩
  | 3 => ⟨S1600000, .i32⟩
  | 4 => ⟨S24x128, .f32⟩
  | 5 => ⟨S256x512, .f32⟩
  | 6 => ⟨S512, .f32⟩
  | 7 => ⟨S512, .f32⟩
  | 8 => ⟨S512, .f32⟩
  | 9 => ⟨S512x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S_, .i32⟩
  | 16 => ⟨S100000, .i32⟩
  | 17 => ⟨S100000, .i1⟩
  | 18 => ⟨S_, .i32⟩
  | 19 => ⟨S100000, .i32⟩
  | 20 => ⟨S100000, .i32⟩
  | 21 => ⟨S100000, .i32⟩
  | 22 => ⟨S100000x1, .i32⟩
  | 23 => ⟨S100000x128, .f32⟩
  | 24 => ⟨S100000x256, .f32⟩
  | 25 => ⟨S100000x512, .f32⟩
  | 26 => ⟨S1x512, .f32⟩
  | 27 => ⟨S100000x512, .f32⟩
  | 28 => ⟨S100000x512, .f32⟩
  | 29 => ⟨S_, .f32⟩
  | 30 => ⟨S100000, .f32⟩
  | 31 => ⟨S100000x1, .f32⟩
  | 32 => ⟨S_, .f32⟩
  | 33 => ⟨S100000x1, .f32⟩
  | 34 => ⟨S100000x1, .f32⟩
  | 35 => ⟨S100000x512, .f32⟩
  | 36 => ⟨S100000x512, .f32⟩
  | 37 => ⟨S100000x512, .f32⟩
  | 38 => ⟨S_, .f32⟩
  | 39 => ⟨S100000, .f32⟩
  | 40 => ⟨S100000x1, .f32⟩
  | 41 => ⟨S_, .f32⟩
  | 42 => ⟨S100000x1, .f32⟩
  | 43 => ⟨S100000x1, .f32⟩
  | 44 => ⟨S100000x512, .f32⟩
  | 45 => ⟨S100000x512, .f32⟩
  | 46 => ⟨S_, .f32⟩
  | 47 => ⟨S100000x1, .f32⟩
  | 48 => ⟨S100000x1, .f32⟩
  | 49 => ⟨S100000x1, .f32⟩
  | 50 => ⟨S100000x512, .f32⟩
  | 51 => ⟨S100000x512, .f32⟩
  | 52 => ⟨S1x512, .f32⟩
  | 53 => ⟨S100000x512, .f32⟩
  | 54 => ⟨S100000x512, .f32⟩
  | 55 => ⟨S1x512, .f32⟩
  | 56 => ⟨S100000x512, .f32⟩
  | 57 => ⟨S100000x512, .f32⟩
  | 58 => ⟨S_, .f32⟩
  | 59 => ⟨S100000x512, .f32⟩
  | 60 => ⟨S100000x512, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S1600000, .f32⟩
  | 67 => ⟨S_, .f32⟩
  | 68 => ⟨S100000, .f32⟩
  | 69 => ⟨S1600000x1, .i32⟩
  | 70 => ⟨S100000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .i1⟩
  | 78 => ⟨S_, .f32⟩
  | 79 => ⟨S100000, .f32⟩
  | 80 => ⟨S100000, .f32⟩
  | 81 => ⟨S100000, .f32⟩
  | 82 => ⟨S_, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x1, .f32⟩
  | 124 => ⟨S100000x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S100000x1, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_cst : Ref sig .tc := ⟨.hbm, 58, rfl⟩
abbrev main_call0_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_call1_v0 : Ref sig .tc := ⟨.hbm, 83, rfl⟩
abbrev main_call1_v1 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_14 : Ref sig .tc := ⟨.hbm, 100, rfl⟩
abbrev main_v63 : Ref sig .tc := ⟨.hbm, 101, rfl⟩
abbrev main_v64 : Ref sig .tc := ⟨.hbm, 102, rfl⟩
abbrev main_c_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call3_cst : Ref sig .tc := ⟨.hbm, 120, rfl⟩
abbrev main_call3_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_c_18 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  gather_S24x128_S100000x1_S100000x128_1_0_n_n_0_1_1128_wf : GatherDims.WF S24x128 S100000x1 S100000x128 [1] [0] [] [0] [] 1 ![1, 128]
  dot_S100000x256_S256x512_S100000x512_1_0_0_1_n_n_wf : DotDims.WF S100000x256 S256x512 S100000x512 [1] [0] [0] [1] [] []
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S24x128_S100000x1_S100000x128_1_0_n_n_0_1_1128 : GatherDims S24x128 S100000x1 S100000x128 where
  offsetDims := [1]
  collapsedSliceDims := [0]
  operandBatchingDims := []
  startIndicesBatchingDims := []
  startIndexMap := [0]
  indexVectorDim := 1
  sliceSizes := ![1, 128]
  wf := gather_S24x128_S100000x1_S100000x128_1_0_n_n_0_1_1128_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Args.lean ====
import proofs.«403315_j6150393168617_2_alg».proof.Proof.Gen.KernelIdeal.Frame
import proofs.«403315_j6150393168617_2_alg».proof.Proof.RefRead
import Idealize.ShloMosaic.Lib.ValueIdx

/-! The kernel program's fifteen arguments read at the reference's array types, the reference's stages
    as functions of them, and what each kernel region must find in its input arrays when it is entered. -/

noncomputable section

namespace Cert.Bridge

open Idealize.ShloMosaic Idealize.ShloMosaic.TcCoe Idealize.SL.Sem Idealize.ShloMosaic.ValueIdx
open Cert.KernelIdeal Cert.KernelIdeal.Gen

/-- A launch memory of the kernel program at the ideal instance. -/
abbrev KMem := (ℓ : Loc nD τ sig) → Buf (Elt Ideal) ℓ
/-- The TensorCore's buffer contents at a region's entry. -/
abbrev KV := (c : Dev nD) → (b : Ref sig .tc) → Buf (Elt Ideal) ((c : Thread nD τ).loc b)

section Args
variable (m : KMem) (c : Dev nD)
/-- features -/
abbrev a0 : (⟨Cert.ReferenceIdeal.S100000x128, .f32⟩ : BufTy).Contents (Elt Ideal) := m ((c.tc : Thread nD τ).loc main_arg0)
/-- input_labels -/
abbrev a1 : (⟨Cert.ReferenceIdeal.S100000, .i32⟩ : BufTy).Contents (Elt Ideal) := m ((c.tc : Thread nD τ).loc main_arg1)
/-- edge_src -/
abbrev a2 : (⟨Cert.ReferenceIdeal.S1600000, .i32⟩ : BufTy).Contents (Elt Ideal) := m ((c.tc : Thread nD τ).loc main_arg2)
/-- edge_dst -/
abbrev a3 : (⟨Cert.ReferenceIdeal.S1600000, .i32⟩ : BufTy).Contents (Elt Ideal) := m ((c.tc : Thread nD τ).loc main_arg3)
/-- label_embed -/
abbrev a4 : (⟨Cert.ReferenceIdeal.S24x128, .f32⟩ : BufTy).Contents (Elt Ideal) := m ((c.tc : Thread nD τ).loc main_arg4)
/-- W1 -/
abbrev a5 : (⟨Cert.ReferenceIdeal.S256x512, .f32⟩ : BufTy).Contents (Elt Ideal) := m ((c.tc : Thread nD τ).loc main_arg5)
/-- b1 -/
abbrev a6 : (⟨Cert.ReferenceIdeal.S512, .f32⟩ : BufTy).Contents (Elt Ideal) := m ((c.tc : Thread nD τ).loc main_arg6)
/-- g1 -/
abbrev a7 : (⟨Cert.ReferenceIdeal.S512, .f32⟩ : BufTy).Contents (Elt Ideal) := m ((c.tc : Thread nD τ).loc main_arg7)
/-- be1 -/
abbrev a8 : (⟨Cert.ReferenceIdeal.S512, .f32⟩ : BufTy).Contents (Elt Ideal) := m ((c.tc : Thread nD τ).loc main_arg8)
/-- W2 -/
abbrev a9 : (⟨Cert.ReferenceIdeal.S512x128, .f32⟩ : BufTy).Contents (Elt Ideal) := m ((c.tc : Thread nD τ).loc main_arg9)
/-- b2 -/
abbrev a10 : (⟨Cert.ReferenceIdeal.S128, .f32⟩ : BufTy).Contents (Elt Ideal) := m ((c.tc : Thread nD τ).loc main_arg10)
/-- Wc0 -/
abbrev a11 : (⟨Cert.ReferenceIdeal.S128x128, .f32⟩ : BufTy).Contents (Elt Ideal) := m ((c.tc : Thread nD τ).loc main_arg11)
/-- bc0 -/
abbrev a12 : (⟨Cert.ReferenceIdeal.S128, .f32⟩ : BufTy).Contents (Elt Ideal) := m ((c.tc : Thread nD τ).loc main_arg12)
/-- Wc1 -/
abbrev a13 : (⟨Cert.ReferenceIdeal.S128x128, .f32⟩ : BufTy).Contents (Elt Ideal) := m ((c.tc : Thread nD τ).loc main_arg13)
/-- bc1 -/
abbrev a14 : (⟨Cert.ReferenceIdeal.S128, .f32⟩ : BufTy).Contents (Elt Ideal) := m ((c.tc : Thread nD τ).loc main_arg14)
end Args

open Cert.ReferenceIdeal.ReadP

/-- What region 0 (label embedding, the two-layer perceptron with its layer normalisation, the source-degree scale) must find
    in its eleven input arrays: the node features; the labels as a column; the source-degree scale as a column; the label table
    padded with zero rows to 128 rows; the upper and the lower half of the first weight matrix; the first bias, the
    normalisation's gain and offset as rows; the second weight matrix; the second bias as a row. -/
structure Entry0 (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) : Prop where
  x : ∀ (i : Fin 100000) (j : Fin 128), (V c main_arg0 : S100000x128.Idx → EReal) (ix2 i j) = y0 (ix2 i j)
  lab : ∀ i : Fin 100000, (V c main_v21 : S100000x1.Idx → BitVec 32) (ix2 i (0 : Fin 1)) = y1 (ix1 i)
  ns : ∀ i : Fin 100000, (V c main_v13 : S100000x1.Idx → EReal) (ix2 i (0 : Fin 1)) = val_main_v53 (F := Ideal) y2 (ix1 i)
  emb : ∀ (r j : Fin 128), (V c main_v22 : S128x128.Idx → EReal) (ix2 r j) = if h : r.val < 24 then y4 (ix2 (⟨r.val, h⟩ : Fin 24) j) else 0
  w1a : ∀ (j : Fin 128) (k : Fin 512), (V c main_v23 : S128x512.Idx → EReal) (ix2 j k) = y5 (ix2 (⟨j.val, by omega⟩ : Fin 256) k)
  w1b : ∀ (j : Fin 128) (k : Fin 512), (V c main_v24 : S128x512.Idx → EReal) (ix2 j k) = y5 (ix2 (⟨128 + j.val, by omega⟩ : Fin 256) k)
  b1 : ∀ k : Fin 512, (V c main_v25 : S1x512.Idx → EReal) (ix2 (0 : Fin 1) k) = y6 (ix1 k)
  g1 : ∀ k : Fin 512, (V c main_v26 : S1x512.Idx → EReal) (ix2 (0 : Fin 1) k) = y7 (ix1 k)
  be1 : ∀ k : Fin 512, (V c main_v27 : S1x512.Idx → EReal) (ix2 (0 : Fin 1) k) = y8 (ix1 k)
  w2 : ∀ (k : Fin 512) (q : Fin 128), (V c main_arg9 : S512x128.Idx → EReal) (ix2 k q) = y9 (ix2 k q)
  b2 : ∀ q : Fin 128, (V c main_v28 : S1x128.Idx → EReal) (ix2 (0 : Fin 1) q) = y10 (ix1 q)

/-- What a graph-convolution region with the source-degree scale (region 1) must find: the aggregated messages `A`; the
    destination-degree scale `nd` and the source-degree scale `ns` as columns; the weight matrix; the bias as a row. -/
structure Entry1 (V : KV) (c : Dev nD) (A : (⟨Cert.ReferenceIdeal.S100000x128, .f32⟩ : BufTy).Contents (Elt Ideal)) (nd ns : (⟨Cert.ReferenceIdeal.S100000, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) : Prop where
  agg : ∀ (i : Fin 100000) (j : Fin 128), (V c main_v40 : S100000x128.Idx → EReal) (ix2 i j) = A (ix2 i j)
  nd : ∀ i : Fin 100000, (V c main_v20 : S100000x1.Idx → EReal) (ix2 i (0 : Fin 1)) = nd (ix1 i)
  ns : ∀ i : Fin 100000, (V c main_v13 : S100000x1.Idx → EReal) (ix2 i (0 : Fin 1)) = ns (ix1 i)
  w : ∀ (j q : Fin 128), (V c main_arg11 : S128x128.Idx → EReal) (ix2 j q) = y11 (ix2 j q)
  b : ∀ q : Fin 128, (V c main_v41 : S1x128.Idx → EReal) (ix2 (0 : Fin 1) q) = y12 (ix1 q)

/-- What the last graph-convolution region (region 2) must find: the aggregated messages `A`; the destination-degree scale as
    a column; the weight matrix; the bias as a row. -/
structure Entry2 (V : KV) (c : Dev nD) (A : (⟨Cert.ReferenceIdeal.S100000x128, .f32⟩ : BufTy).Contents (Elt Ideal)) (nd : (⟨Cert.ReferenceIdeal.S100000, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal)) : Prop where
  agg : ∀ (i : Fin 100000) (j : Fin 128), (V c main_v53 : S100000x128.Idx → EReal) (ix2 i j) = A (ix2 i j)
  nd : ∀ i : Fin 100000, (V c main_v20 : S100000x1.Idx → EReal) (ix2 i (0 : Fin 1)) = nd (ix1 i)
  w : ∀ (j q : Fin 128), (V c main_arg13 : S128x128.Idx → EReal) (ix2 j q) = y13 (ix2 j q)
  b : ∀ q : Fin 128, (V c main_v54 : S1x128.Idx → EReal) (ix2 (0 : Fin 1) q) = y14 (ix1 q)

section Stages
variable (m : KMem) (c : Dev nD)
/-- The source-degree scale: 1/√(out-degree) where the out-degree is positive, else 0. -/
def nsR : (⟨Cert.ReferenceIdeal.S100000, .f32⟩ : BufTy).Contents (Elt Ideal) := val_main_v53 (F := Ideal) (a2 m c)
/-- The destination-degree scale. -/
def ndR : (⟨Cert.ReferenceIdeal.S100000, .f32⟩ : BufTy).Contents (Elt Ideal) := val_main_v59 (F := Ideal) (a3 m c)
/-- The perceptron's output scaled by the source-degree scale: what layer 0 gathers. -/
def hs0R : (⟨Cert.ReferenceIdeal.S100000x128, .f32⟩ : BufTy).Contents (Elt Ideal) := val_main_v62 (F := Ideal) (a0 m c) (a1 m c) (a2 m c) (a4 m c) (a5 m c) (a6 m c) (a7 m c) (a8 m c) (a9 m c) (a10 m c)
/-- Layer 0's aggregated messages. -/
def agg0R : (⟨Cert.ReferenceIdeal.S100000x128, .f32⟩ : BufTy).Contents (Elt Ideal) := val_main_v72 (F := Ideal) (a0 m c) (a1 m c) (a2 m c) (a3 m c) (a4 m c) (a5 m c) (a6 m c) (a7 m c) (a8 m c) (a9 m c) (a10 m c)
/-- Layer 0's output scaled by the source-degree scale: what layer 1 gathers. -/
def hs1R : (⟨Cert.ReferenceIdeal.S100000x128, .f32⟩ : BufTy).Contents (Elt Ideal) := val_main_v83 (F := Ideal) (a0 m c) (a1 m c) (a2 m c) (a3 m c) (a4 m c) (a5 m c) (a6 m c) (a7 m c) (a8 m c) (a9 m c) (a10 m c) (a11 m c) (a12 m c)
/-- Layer 1's aggregated messages. -/
def agg1R : (⟨Cert.ReferenceIdeal.S100000x128, .f32⟩ : BufTy).Contents (Elt Ideal) := val_main_v93 (F := Ideal) (a0 m c) (a1 m c) (a2 m c) (a3 m c) (a4 m c) (a5 m c) (a6 m c) (a7 m c) (a8 m c) (a9 m c) (a10 m c) (a11 m c) (a12 m c)
/-- The result. -/
def outR : (⟨Cert.ReferenceIdeal.S100000x128, .f32⟩ : BufTy).Contents (Elt Ideal) := val_main_v101 (F := Ideal) (a0 m c) (a1 m c) (a2 m c) (a3 m c) (a4 m c) (a5 m c) (a6 m c) (a7 m c) (a8 m c) (a9 m c) (a10 m c) (a11 m c) (a12 m c) (a13 m c) (a14 m c)
end Stages

end Cert.Bridge

end
-- ==== Proof.ZRef.lean ====
import proofs.«403315_j6150393168617_2_alg».proof.Proof.Args
import Idealize.ShloMosaic.Lib.Pipeline.Value
import Idealize.ShloMosaic.PureOps.Ideal.Laws

/-! The reference's pre-normalisation activations, one row at a time: the gathered label-table row joined to the feature row,
    times the first weight matrix, is the feature row times the matrix's upper half plus the table row times its lower half;
    then the bias. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP
open scoped BigOperators

/-- The dimension numbers of the reference's gather of table rows: operand [24, 128], start indices [100000, 1],
    one collapsed and start-indexed axis (the rows), one offset axis (the columns). -/
abbrev gd : GatherDims Cert.ReferenceIdeal.S24x128 Cert.ReferenceIdeal.S100000x1 Cert.ReferenceIdeal.S100000x128 :=
  Cert.ReferenceIdeal.gather_S24x128_S100000x1_S100000x128_1_0_n_n_0_1_1128

/-- A label that reads non-negative is left as it is by the reference's wrap-around of negative labels. -/
theorem v4_of_nonneg (y1 : (⟨Cert.ReferenceIdeal.S100000, .i32⟩ : BufTy).Contents (Elt Ideal)) (i : Fin 100000)
    (h : 0 ≤ (y1 (ix1 i)).toInt) : val_main_v4 (F := Ideal) y1 (ix1 i) = y1 (ix1 i) := by
  rw [val_main_v4_apply, val_main_v1_apply, val_main_v0_apply, val_main_c_apply]
  have hc : ¬ IntOp.cmpi .slt (y1 (ix1 i)) 0#32 = 1#1 := by
    rw [IntOp.cmpi_slt, show (0#32 : BitVec 32).toInt = 0 from by decide]; omega
  rw [eq_zero_of_ne_one hc]
  exact select_zero _ _

/-- The gather's operand row for result element (i, j): the start index at (i, 0), read signed and clamped into 0 … 23. -/
theorem gd_axis0 (i : Fin 100000) (j : Fin 128) (idx : IVec Cert.ReferenceIdeal.S100000x1 32) :
    (gd.operandIdx (ix2 i j) idx (0 : Fin Cert.ReferenceIdeal.S24x128.rank)).val
      = min (idx (ix2 i (0 : Fin 1))).toInt.toNat 23 := by
  have hb : gd.batchCoord (ix2 i j) (0 : Fin Cert.ReferenceIdeal.S24x128.rank) = 0 :=
    GatherDims.batchCoord_eq_zero _ _ _ List.not_mem_nil
  have ho : gd.offCoord (ix2 i j) (0 : Fin Cert.ReferenceIdeal.S24x128.rank) = 0 :=
    GatherDims.offCoord_eq_zero _ _ _ (fun h => ((GatherDims.mem_sKept _ _).mp h).1 (List.mem_singleton.mpr rfl))
  have hs : gd.start (ix2 i j) idx (0 : Fin Cert.ReferenceIdeal.S24x128.rank) = min (idx (ix2 i (0 : Fin 1))).toInt.toNat 23 := by
    unfold GatherDims.start
    rw [dif_pos (show (0 : Fin Cert.ReferenceIdeal.S24x128.rank) ∈ gd.startIndexMap from List.mem_singleton.mpr rfl)]
    have hsi : gd.siIdx (ix2 i j) ⟨List.idxOf (0 : Fin Cert.ReferenceIdeal.S24x128.rank) gd.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  show gd.start (ix2 i j) idx 0 + gd.batchCoord (ix2 i j) 0 + gd.offCoord (ix2 i j) 0 = _
  rw [hs, hb, ho]
  omega

/-- The gather's operand column for result element (i, j) is j: the one offset axis. -/
theorem gd_axis1 (i : Fin 100000) (j : Fin 128) (idx : IVec Cert.ReferenceIdeal.S100000x1 32) :
    (gd.operandIdx (ix2 i j) idx (1 : Fin Cert.ReferenceIdeal.S24x128.rank)).val = j.val := by
  have hb : gd.batchCoord (ix2 i j) (1 : Fin Cert.ReferenceIdeal.S24x128.rank) = 0 :=
    GatherDims.batchCoord_eq_zero _ _ _ List.not_mem_nil
  have hs : gd.start (ix2 i j) idx (1 : Fin Cert.ReferenceIdeal.S24x128.rank) = 0 := by
    unfold GatherDims.start
    rw [dif_neg (show ¬ (1 : Fin Cert.ReferenceIdeal.S24x128.rank) ∈ gd.startIndexMap by decide)]
  have ho : gd.offCoord (ix2 i j) (1 : Fin Cert.ReferenceIdeal.S24x128.rank) = j.val := by
    unfold GatherDims.offCoord
    rw [dif_pos (show (1 : Fin Cert.ReferenceIdeal.S24x128.rank) ∈ gd.sKept by decide)]
    rfl
  show gd.start (ix2 i j) idx 1 + gd.batchCoord (ix2 i j) 1 + gd.offCoord (ix2 i j) 1 = _
  rw [hs, hb, ho]
  omega

/-- The gathered row: when label `i` is row `r` of the table, element (i, j) of the gather is the table at (r, j). -/
theorem v6_row (y1 : (⟨Cert.ReferenceIdeal.S100000, .i32⟩ : BufTy).Contents (Elt Ideal))
    (y4 : (⟨Cert.ReferenceIdeal.S24x128, .f32⟩ : BufTy).Contents (Elt Ideal)) (i : Fin 100000) (r : Fin 24)
    (hrow : (y1 (ix1 i)).toInt = (r.val : ℤ)) (j : Fin 128) :
    val_main_v6 (F := Ideal) y1 y4 (ix2 i j) = y4 (ix2 r j) := by
  -- the start index at (i, 0) is the label itself: it is non-negative, so the wrap-around leaves it
  have h5 : val_main_v5 (F := Ideal) y1 (ix2 i (0 : Fin 1)) = y1 (ix1 i) := by
    rw [val_main_v5_apply]
    have e : idx_main_v5 (ix2 i (0 : Fin 1)) = ix1 i := funext fun a => Fin.ext (by match a with | ⟨0, _⟩ => rfl)
    rw [e]
    exact v4_of_nonneg y1 i (by rw [hrow]; exact Int.natCast_nonneg _)
  unfold val_main_v6 Host.gather
  refine congrArg y4 (funext fun a => Fin.ext ?_)
  match a with
  | ⟨0, _⟩ =>
    refine (gd_axis0 i j _).trans ?_
    rw [h5, hrow, Int.toNat_natCast]
    show min r.val 23 = r.val
    have := r.isLt
    omega
  | ⟨1, _⟩ => exact gd_axis1 i j _

/-- The joined row's first 128 entries are the feature row. -/
theorem v7_lo (y0 : (⟨Cert.ReferenceIdeal.S100000x128, .f32⟩ : BufTy).Contents (Elt Ideal))
    (y1 : (⟨Cert.ReferenceIdeal.S100000, .i32⟩ : BufTy).Contents (Elt Ideal))
    (y4 : (⟨Cert.ReferenceIdeal.S24x128, .f32⟩ : BufTy).Contents (Elt Ideal)) (i : Fin 100000) (k : Fin 512) (j : Fin 128) :
    val_main_v7 (F := Ideal) y0 y1 y4 (lidx_main_v8 (ix2 i k) (⟨j.val, by omega⟩ : Fin 256)) = y0 (ix2 i j) := by
  unfold val_main_v7
  exact concatenate_pair_apply_left (1 : Fin Cert.ReferenceIdeal.S100000x256.rank) y0 (val_main_v6 (F := Ideal) y1 y4) _ _ rfl (ix2 i j)
    (fun b => match b with | ⟨0, _⟩ => rfl | ⟨1, _⟩ => rfl)

/-- The joined row's last 128 entries are the gathered table row. -/
theorem v7_hi (y0 : (⟨Cert.ReferenceIdeal.S100000x128, .f32⟩ : BufTy).Contents (Elt Ideal))
    (y1 : (⟨Cert.ReferenceIdeal.S100000, .i32⟩ : BufTy).Contents (Elt Ideal))
    (y4 : (⟨Cert.ReferenceIdeal.S24x128, .f32⟩ : BufTy).Contents (Elt Ideal)) (i : Fin 100000) (k : Fin 512) (j : Fin 128) :
    val_main_v7 (F := Ideal) y0 y1 y4 (lidx_main_v8 (ix2 i k) (⟨128 + j.val, by omega⟩ : Fin 256))
      = val_main_v6 (F := Ideal) y1 y4 (ix2 i j) := by
  unfold val_main_v7
  exact concatenate_pair_apply_right (1 : Fin Cert.ReferenceIdeal.S100000x256.rank) y0 (val_main_v6 (F := Ideal) y1 y4) _ _ rfl rfl (ix2 i j)
    (fun b => match b with | ⟨0, _⟩ => fun _ => rfl | ⟨1, _⟩ => fun hne => absurd rfl hne)
    (by show j.val + 128 = 128 + j.val; omega)

/-- The weight matrix's row index under the contraction index, in its upper and its lower half. -/
theorem ridx_lo (i : Fin 100000) (k : Fin 512) (j : Fin 128) :
    ridx_main_v8 (ix2 i k) (⟨j.val, by omega⟩ : Fin 256) = ix2 (⟨j.val, by omega⟩ : Fin 256) k :=
  funext fun a => Fin.ext (by match a with | ⟨0, _⟩ => rfl | ⟨1, _⟩ => rfl)
theorem ridx_hi (i : Fin 100000) (k : Fin 512) (j : Fin 128) :
    ridx_main_v8 (ix2 i k) (⟨128 + j.val, by omega⟩ : Fin 256) = ix2 (⟨128 + j.val, by omega⟩ : Fin 256) k :=
  funext fun a => Fin.ext (by match a with | ⟨0, _⟩ => rfl | ⟨1, _⟩ => rfl)

/-- A sum over 256 = 128 + 128 indices is the sum over the first 128 plus the sum over the last 128. -/
theorem sum_256_split (f : Fin 256 → EReal) :
    ∑ kk : Fin 256, f kk = (∑ j : Fin 128, f ⟨j.val, by omega⟩) + ∑ j : Fin 128, f ⟨128 + j.val, by omega⟩ :=
  Fin.sum_univ_add (a := 128) (b := 128) f

/-- Row `i` of the reference's pre-normalisation activations, when label `i` is row `r` of the 24-row table. -/
theorem z_ref (y0 : (⟨Cert.ReferenceIdeal.S100000x128, .f32⟩ : BufTy).Contents (Elt Ideal)) (y1 : (⟨Cert.ReferenceIdeal.S100000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (i : Fin 100000) (r : Fin 24)
    (hrow : (y1 (ix1 i)).toInt = (r.val : ℤ)) (k : Fin 512) :
    val_main_v11 (F := Ideal) y0 y1 y4 y5 y6 (ix2 i k)
      = ((∑ j : Fin 128, y0 (ix2 i j) * y5 (ix2 (⟨j.val, by omega⟩ : Fin 256) k))
          + (∑ j : Fin 128, y4 (ix2 r j) * y5 (ix2 (⟨128 + j.val, by omega⟩ : Fin 256) k)))
        + y6 (ix1 k) := by
  -- the bias, broadcast along the rows, reads the bias at the column
  have h10 : val_main_v10 (F := Ideal) y6 (ix2 i k) = y6 (ix1 k) := by
    rw [val_main_v10_apply, val_main_v9_apply]
    exact congrArg y6 (funext fun a => Fin.ext (by match a with | ⟨0, _⟩ => rfl))
  rw [val_main_v11_apply, Ideal.addf_def, val_main_v8_apply, h10, sum_256_split]
  congr 1
  congr 1
  · refine Finset.sum_congr rfl fun j _ => ?_
    rw [v7_lo, ridx_lo]
  · refine Finset.sum_congr rfl fun j _ => ?_
    rw [v7_hi, v6_row y1 y4 i r hrow, ridx_hi]

end Cert.Bridge

end
-- ==== Proof.ZStage.lean ====
import proofs.«403315_j6150393168617_2_alg».proof.Proof.Args
import proofs.«403315_j6150393168617_2_alg».proof.Proof.ZRef
import Idealize.ShloMosaic.Lib.Pipeline.Value
import Idealize.ShloMosaic.PureOps.Ideal.Laws

/-! Region 0 before the layer normalisation, one row at a time: the one-hot product with the zero-padded label table is the
    label's row of the table; the two half products with the halves of the first weight matrix add up to the product of the
    joined row with the whole matrix; then the bias. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP
open scoped BigOperators

/-! ### The two matrix products of the body, read at an index as sums over the contracted axis -/

theorem lhs_mmE_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mmE_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mmE_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mmE_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product with the 128 × 128 table block into the zero accumulator, at row `p` and column `j`. -/
theorem mmE_apply (A : FVec Ideal S2000x128 .bf16) (B : FVec Ideal S128x128 .bf16) (p : Fin 2000) (j : Fin 128) :
    (matmul dot_S2000x128_S128x128_S2000x128_1_0_0_1_n_n none A B (constant (F := Ideal) S2000x128 .f32 0x00000000#32) : FVec Ideal S2000x128 .f32) (ix2 p j)
      = ∑ c : Fin 128, A (ix2 p c) * B (ix2 c j) := by
  simp only [matmul]
  rw [Ideal.matmul_constant_zero_apply, ← Equiv.sum_comp (contrEquiv1 dot_S2000x128_S128x128_S2000x128_1_0_0_1_n_n 128 rfl rfl).symm]
  refine Finset.sum_congr rfl fun c _ => ?_
  have hk := contrEquiv1_symm_val dot_S2000x128_S128x128_S2000x128_1_0_0_1_n_n 128 rfl rfl c
  have el : dot_S2000x128_S128x128_S2000x128_1_0_0_1_n_n.lhsIdx (ix2 p j) ((contrEquiv1 dot_S2000x128_S128x128_S2000x128_1_0_0_1_n_n 128 rfl rfl).symm c) = ix2 p c := funext fun a => Fin.ext (by
    match a with
    | ⟨0, _⟩ => exact lhs_mmE_0 _ _
    | ⟨1, _⟩ => exact (lhs_mmE_1 _ _).trans hk)
  have er : dot_S2000x128_S128x128_S2000x128_1_0_0_1_n_n.rhsIdx (ix2 p j) ((contrEquiv1 dot_S2000x128_S128x128_S2000x128_1_0_0_1_n_n 128 rfl rfl).symm c) = ix2 c j := funext fun a => Fin.ext (by
    match a with
    | ⟨0, _⟩ => exact (rhs_mmE_0 _ _).trans hk
    | ⟨1, _⟩ => exact rhs_mmE_1 _ _)
  rw [el, er]

theorem lhs_mmW_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_mmW_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem rhs_mmW_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem rhs_mmW_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- A product with a 128 × 512 half of the weight matrix into the zero accumulator, at row `p` and column `k`. -/
theorem mmW_apply (A : FVec Ideal S2000x128 .bf16) (B : FVec Ideal S128x512 .bf16) (p : Fin 2000) (k : Fin 512) :
    (matmul dot_S2000x128_S128x512_S2000x512_1_0_0_1_n_n none A B (constant (F := Ideal) S2000x512 .f32 0x00000000#32) : FVec Ideal S2000x512 .f32) (ix2 p k)
      = ∑ c : Fin 128, A (ix2 p c) * B (ix2 c k) := by
  simp only [matmul]
  rw [Ideal.matmul_constant_zero_apply, ← Equiv.sum_comp (contrEquiv1 dot_S2000x128_S128x512_S2000x512_1_0_0_1_n_n 128 rfl rfl).symm]
  refine Finset.sum_congr rfl fun c _ => ?_
  have hk := contrEquiv1_symm_val dot_S2000x128_S128x512_S2000x512_1_0_0_1_n_n 128 rfl rfl c
  have el : dot_S2000x128_S128x512_S2000x512_1_0_0_1_n_n.lhsIdx (ix2 p k) ((contrEquiv1 dot_S2000x128_S128x512_S2000x512_1_0_0_1_n_n 128 rfl rfl).symm c) = ix2 p c := funext fun a => Fin.ext (by
    match a with
    | ⟨0, _⟩ => exact lhs_mmW_0 _ _
    | ⟨1, _⟩ => exact (lhs_mmW_1 _ _).trans hk)
  have er : dot_S2000x128_S128x512_S2000x512_1_0_0_1_n_n.rhsIdx (ix2 p k) ((contrEquiv1 dot_S2000x128_S128x512_S2000x512_1_0_0_1_n_n 128 rfl rfl).symm c) = ix2 c k := funext fun a => Fin.ext (by
    match a with
    | ⟨0, _⟩ => exact (rhs_mmW_0 _ _).trans hk
    | ⟨1, _⟩ => exact rhs_mmW_1 _ _)
  rw [el, er]

/-! ### The one-hot factor -/

/-- The one-hot factor of the label word `w` at table row `d`: the row's number compared with the word, the bit widened
    and read as a number. -/
def hot (w : BitVec 32) (d : Fin 128) : EReal :=
  FloatOps.sitofp (F := Ideal) .f32 ((IntOp.cmpi .eq (BitVec.ofNat 32 d.val) w).setWidth 32)

theorem hot_word_true : (BitVec.setWidth 32 (BitVec.ofBool true)).toInt = 1 := by decide
theorem hot_word_false : (BitVec.setWidth 32 (BitVec.ofBool false)).toInt = 0 := by decide

/-- A word whose signed reading is a number below 24 is that number's word. -/
theorem word_of_toInt (w : BitVec 32) (r : Fin 24) (hw : w.toInt = (r.val : ℤ)) : w = BitVec.ofNat 32 r.val := by
  apply BitVec.eq_of_toNat_eq
  rw [BitVec.toNat_ofNat]
  have h1 := w.isLt
  have h2 := r.isLt
  unfold BitVec.toInt at hw
  split at hw <;> omega

/-- The factor is 1 at the label's row and 0 at every other row. -/
theorem hot_eq (w : BitVec 32) (r : Fin 24) (hw : w.toInt = (r.val : ℤ)) (d : Fin 128) :
    hot w d = if d.val = r.val then 1 else 0 := by
  rw [word_of_toInt w r hw]
  show ((((BitVec.ofBool (BitVec.ofNat 32 d.val == BitVec.ofNat 32 r.val)).setWidth 32).toInt : ℝ) : EReal) = _
  by_cases h : d.val = r.val
  · rw [if_pos h, h, beq_self_eq_true, hot_word_true]; simp
  · have hne : (BitVec.ofNat 32 d.val == BitVec.ofNat 32 r.val) = false := by
      rw [beq_eq_false_iff_ne]
      intro e
      apply h
      have := congrArg BitVec.toNat e
      simp only [BitVec.toNat_ofNat] at this
      have hd := d.isLt
      have hr := r.isLt
      omega
    rw [if_neg h, hne, hot_word_false]; simp

/-- The one-hot row times a column of the table block is the block's entry at the label's row. -/
theorem hot_sum (w : BitVec 32) (r : Fin 24) (hw : w.toInt = (r.val : ℤ)) (g : Fin 128 → EReal) :
    ∑ d : Fin 128, hot w d * g d = g ⟨r.val, by omega⟩ := by
  rw [Finset.sum_eq_single (⟨r.val, by omega⟩ : Fin 128)]
  · rw [hot_eq w r hw, if_pos rfl, one_mul]
  · intro d _ hd
    rw [hot_eq w r hw, if_neg (fun e => hd (Fin.ext e)), zero_mul]
  · intro h
    exact absurd (Finset.mem_univ _) h

/-- The one-hot block (row numbers along axis 1 compared with the label column spread along the rows) at row `p` and column
    `d` is the factor of the label at row `p`. -/
theorem onehot_at (v0 : Vec Ideal S2000x1 .i32) (p : Fin 2000) (d : Fin 128) :
    (sitofp (F := Ideal) .f32 (extui 32 (cmpi .eq (iota .tc S2000x128 32 [1] iota_S2000x128_d1_w32) (broadcastTo S2000x128 v0 broadcasts_S2000x1_S2000x128)) natLt_1_32) : FVec Ideal S2000x128 .f32) (ix2 p d)
      = hot (v0 (ix2 p (0 : Fin 1))) d := by
  rw [sitofp_apply, extui_apply]
  show FloatOps.sitofp (F := Ideal) .f32 ((IntOp.cmpi .eq (iota .tc S2000x128 32 [1] iota_S2000x128_d1_w32 (ix2 p d)) (broadcastTo S2000x128 v0 broadcasts_S2000x1_S2000x128 (ix2 p d))).setWidth 32) = _
  rw [iota_single_apply, broadcastTo_apply v0 broadcasts_S2000x1_S2000x128 (ix2 p d) (ix2 p (0 : Fin 1)) (fun a => match a with
    | ⟨0, _⟩ => by show p.val = if (2000 : Nat) = 1 then 0 else p.val; rw [if_neg (by decide)]
    | ⟨1, _⟩ => by show (0 : Nat) = if (1 : Nat) = 1 then 0 else d.val; rw [if_pos rfl])]
  rfl

/-- Row `p` of region 0's pre-normalisation activations, when the block's label at row `p` is row `r` of the table and the
    128-row table block holds zero rows below its first 24 rows' contents: the one-hot product reads row `r`. -/
theorem z_ker (v0 : Vec Ideal S2000x1 .i32) (v8 : Vec Ideal S128x128 .f32) (v12 : Vec Ideal S2000x128 .f32) (v15 v18 : Vec Ideal S128x512 .f32) (v24 : Vec Ideal S1x512 .f32)
    (p : Fin 2000) (r : Fin 24) (hrow : (v0 (ix2 p (0 : Fin 1))).toInt = (r.val : ℤ)) (k : Fin 512) :
    (k0_pay2 (F := Ideal) v0 v8 v12 v15 v18 v24 (ix2 p k) : EReal)
      = ((∑ j : Fin 128, v12 (ix2 p j) * v15 (ix2 j k))
          + (∑ j : Fin 128, v8 (ix2 (⟨r.val, by omega⟩ : Fin 128) j) * v18 (ix2 j k)))
        + v24 (ix2 (0 : Fin 1) k) := by
  unfold k0_pay2
  simp only [addf_apply]
  rw [mmW_apply, mmW_apply]
  congr 1
  · congr 1
    · -- the feature row times the upper half
      refine Finset.sum_congr rfl fun c _ => ?_
      simp only [truncf_apply, shapeCast_self]
    · -- the one-hot row times the table block, times the lower half
      refine Finset.sum_congr rfl fun c _ => ?_
      simp only [truncf_apply, shapeCast_self, mmE_apply]
      exact congrArg (fun x : EReal => x * v18 (ix2 c k))
        ((Finset.sum_congr rfl fun d _ => congrArg (fun x : EReal => x * v8 (ix2 d c)) (onehot_at v0 p d)).trans
          (hot_sum (v0 (ix2 p (0 : Fin 1))) r hrow (fun d => v8 (ix2 d c))))
  · -- the bias row, broadcast down the rows
    rw [shapeCast_self]
    exact broadcastTo_apply v24 broadcasts_S1x512_S2000x512 (ix2 p k) (ix2 (0 : Fin 1) k) (fun a => match a with
      | ⟨0, _⟩ => by show (0 : Nat) = if (1 : Nat) = 1 then 0 else p.val; rw [if_pos rfl]
      | ⟨1, _⟩ => by show k.val = if (512 : Nat) = 1 then 0 else k.val; rw [if_neg (by decide)])

/-- Row `p` of a block, being row `i` of the arrays, has the reference's pre-normalisation activations. -/
theorem z_row (v0 : Vec Ideal S2000x1 .i32) (v8 : Vec Ideal S128x128 .f32) (v12 : Vec Ideal S2000x128 .f32) (v15 v18 : Vec Ideal S128x512 .f32) (v24 : Vec Ideal S1x512 .f32)
    (y0 : (⟨Cert.ReferenceIdeal.S100000x128, .f32⟩ : BufTy).Contents (Elt Ideal)) (y1 : (⟨Cert.ReferenceIdeal.S100000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (i : Fin 100000) (p : Fin 2000)
    (hx : ∀ j : Fin 128, v12 (ix2 p j) = y0 (ix2 i j))
    (hl : v0 (ix2 p (0 : Fin 1)) = y1 (ix1 i))
    (hr : 0 ≤ (y1 (ix1 i)).toInt ∧ (y1 (ix1 i)).toInt < 24)
    (hE : ∀ (r j : Fin 128), v8 (ix2 r j) = if h : r.val < 24 then y4 (ix2 (⟨r.val, h⟩ : Fin 24) j) else 0)
    (hA : ∀ (j : Fin 128) (k : Fin 512), v15 (ix2 j k) = y5 (ix2 (⟨j.val, by omega⟩ : Fin 256) k))
    (hB : ∀ (j : Fin 128) (k : Fin 512), v18 (ix2 j k) = y5 (ix2 (⟨128 + j.val, by omega⟩ : Fin 256) k))
    (hb : ∀ k : Fin 512, v24 (ix2 (0 : Fin 1) k) = y6 (ix1 k)) (k : Fin 512) :
    (k0_pay2 (F := Ideal) v0 v8 v12 v15 v18 v24 (ix2 p k) : EReal) = val_main_v11 (F := Ideal) y0 y1 y4 y5 y6 (ix2 i k) := by
  -- the label, a number from 0 to 23, names a row of the table
  obtain ⟨r, hrow⟩ : ∃ r : Fin 24, (y1 (ix1 i)).toInt = (r.val : ℤ) :=
    ⟨⟨(y1 (ix1 i)).toInt.toNat, by omega⟩, (Int.toNat_of_nonneg hr.1).symm⟩
  rw [z_ker v0 v8 v12 v15 v18 v24 p r (by rw [hl]; exact hrow) k, z_ref y0 y1 y4 y5 y6 i r hrow k, hb k]
  congr 1
  congr 1
  · exact Finset.sum_congr rfl fun j _ => by rw [hx j, hA j k]
  · refine Finset.sum_congr rfl fun j _ => ?_
    have e : v8 (ix2 (⟨r.val, by omega⟩ : Fin 128) j) = y4 (ix2 r j) := by
      rw [hE]
      exact dif_pos r.isLt
    rw [e, hB j k]

end Cert.Bridge

end
-- ==== Proof.LnStage.lean ====
import proofs.«403315_j6150393168617_2_alg».proof.Proof.Args
import Idealize.ShloMosaic.Lib.Pipeline.Value
import Idealize.ShloMosaic.Lib.ValueLayout
import Idealize.ShloMosaic.PureOps.Ideal.Laws

/-! Region 0 from the pre-normalisation activations on, one row at a time: mean, variance, the normalised row with its gain and
    offset, the rectifier, the second matrix product with its bias, the source-degree scale. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

namespace LnStage

/-! ## The row computation as a function of the pre-normalisation row -/

/-- The mean of a row of 512 entries: their sum divided by the row length, the extended real the float word of `512.0` denotes. -/
def rowMean (z : Fin 512 → EReal) : EReal := Ideal.div (∑ k, z k) (Ideal.ofBits .f32 0x44000000#32)

/-- The variance of a row: the mean of the squared distances of its entries from the row's mean. -/
def rowVar (z : Fin 512 → EReal) : EReal :=
  Ideal.div (∑ k, (z k - rowMean z) * (z k - rowMean z)) (Ideal.ofBits .f32 0x44000000#32)

/-- From a centred row `d` and the row's variance: every entry is scaled by the reciprocal square root of the variance plus the
    stabiliser, given the gain `g` and the offset `be` and rectified; the rectified row is multiplied into column `q` of the
    second weight matrix `W`, the bias `b` is added and the sum is scaled by `ns`. -/
def lnOut (d g be : Fin 512 → EReal) (var : EReal) (W : Fin 512 → Fin 128 → EReal) (b : Fin 128 → EReal) (ns : EReal)
    (q : Fin 128) : EReal :=
  ((∑ k, max (d k * Ideal.rsqrt (var + Ideal.ofBits .f32 0x3727C5AC#32) * g k + be k) 0 * W k q) + b q) * ns

/-! ## Layout operations, a lane sum and the reciprocal square root read at an index -/

/-- An `[a, 1]` column broadcast to `[a, b]` reads, at `(p, c)`, the column's entry of row `p`. -/
theorem broadcastTo_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The vector unit's reciprocal square root at an index is the extended reals' reciprocal square root of the element. -/
theorem rsqrt_apply {s : Shape} {φ : FTy} (a : FVec Ideal s φ) (i : s.Idx) :
    Idealize.ShloMosaic.rsqrt a i = Ideal.rsqrt (a i) := rfl

/-- The sum along a row of a `2000 × 512` array, kept as a column: at row `p` it is the sum of the row's 512 entries. -/
theorem rowSum_col (x : FVec Ideal S2000x512 .f32) (hr : S2000x512.Reduces [1] S2000) (hφ : FKind.Formats .f32)
    (hacc : (0x00000000#32 : BitVec 32) = 0x00000000#32) (hc : S2000.ShapeCasts S2000x1) (p : Fin 2000) :
    (shapeCast S2000x1 (multiReduction .add [1] S2000 x 0x00000000#32 hr hφ hacc) hc : FVec Ideal S2000x1 .f32) (ix2 p (0 : Fin 1))
      = ∑ k : Fin 512, x (ix2 p k) := by
  refine (shapeCast_apply _ hc (ix2 p (0 : Fin 1)) (ix1 p) ?_).trans ?_
  · rw [Shape.rowMajor_val_one, Shape.rowMajor_val_two]
    show p.val = p.val * 1 + 0
    omega
  · refine (Ideal.multiReduction_add_single x 0x00000000#32 hr hφ hacc (ix1 p)).trans ?_
    exact Finset.sum_congr rfl fun k _ => congrArg x (funext fun a => Fin.ext (by match a with | ⟨0, _⟩ => rfl | ⟨1, _⟩ => rfl))

/-! ## The second matrix product at an index -/

/- The operands' indices at output index `i` and contraction index `c`: the left operand is read at (row of `i`, the contraction
   coordinate), the right operand at (the contraction coordinate, column of `i`). -/
theorem lhs_dot_0 (i : S2000x128.Idx) (c : dot_S2000x512_S512x128_S2000x128_1_0_0_1_n_n.contr.Idx) :
    (dot_S2000x512_S512x128_S2000x128_1_0_0_1_n_n.lhsIdx i c 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_dot_1 (i : S2000x128.Idx) (c : dot_S2000x512_S512x128_S2000x128_1_0_0_1_n_n.contr.Idx) :
    (dot_S2000x512_S512x128_S2000x128_1_0_0_1_n_n.lhsIdx i c 1).val = (c ⟨0, by decide⟩).val :=
  dot_S2000x512_S512x128_S2000x128_1_0_0_1_n_n.lhsIdx_val_of_single rfl i c
theorem rhs_dot_0 (i : S2000x128.Idx) (c : dot_S2000x512_S512x128_S2000x128_1_0_0_1_n_n.contr.Idx) :
    (dot_S2000x512_S512x128_S2000x128_1_0_0_1_n_n.rhsIdx i c 0).val = (c ⟨0, by decide⟩).val :=
  dot_S2000x512_S512x128_S2000x128_1_0_0_1_n_n.rhsIdx_val_of_single rfl i c
theorem rhs_dot_1 (i : S2000x128.Idx) (c : dot_S2000x512_S512x128_S2000x128_1_0_0_1_n_n.contr.Idx) :
    (dot_S2000x512_S512x128_S2000x128_1_0_0_1_n_n.rhsIdx i c 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The product of a `2000 × 512` by a `512 × 128` array into the zero accumulator: at `(p, q)` the sum over `k` of the left
    operand at `(p, k)` times the right operand at `(k, q)`. -/
theorem matmul_row (A : FVec Ideal S2000x512 .bf16) (B : FVec Ideal S512x128 .bf16) (p : Fin 2000) (q : Fin 128) :
    matmul dot_S2000x512_S512x128_S2000x128_1_0_0_1_n_n none A B (constant (F := Ideal) S2000x128 .f32 0x00000000#32) (ix2 p q)
      = ∑ k : Fin 512, A (ix2 p k) * B (ix2 k q) := by
  show FloatOps.matmul dot_S2000x512_S512x128_S2000x128_1_0_0_1_n_n none A B (constant (F := Ideal) S2000x128 .f32 0x00000000#32) (ix2 p q) = _
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## The region's payloads at row `p` -/

/-- The mean column at row `p` is the mean of row `p` of the pre-normalisation activations. -/
theorem pay3_row (v0 : Vec Ideal S2000x1 .i32) (v8 : Vec Ideal S128x128 .f32) (v12 : Vec Ideal S2000x128 .f32) (v15 v18 : Vec Ideal S128x512 .f32) (v24 : Vec Ideal S1x512 .f32) (p : Fin 2000) :
    (k0_pay3 (F := Ideal) v0 v8 v12 v15 v18 v24 (ix2 p (0 : Fin 1)) : EReal) = rowMean (fun k => k0_pay2 (F := Ideal) v0 v8 v12 v15 v18 v24 (ix2 p k)) := by
  unfold k0_pay3 rowMean
  generalize k0_pay2 (F := Ideal) v0 v8 v12 v15 v18 v24 = z
  simp only [divf_apply, broadcast_apply, Ideal.ofBits_def]
  exact congrArg (Ideal.div · _) (rowSum_col z _ _ _ _ p)

/-- The variance column at row `p` is the variance of row `p`. -/
theorem pay4_row (v0 : Vec Ideal S2000x1 .i32) (v8 : Vec Ideal S128x128 .f32) (v12 : Vec Ideal S2000x128 .f32) (v15 v18 : Vec Ideal S128x512 .f32) (v24 : Vec Ideal S1x512 .f32) (p : Fin 2000) :
    (k0_pay4 (F := Ideal) v0 v8 v12 v15 v18 v24 (ix2 p (0 : Fin 1)) : EReal) = rowVar (fun k => k0_pay2 (F := Ideal) v0 v8 v12 v15 v18 v24 (ix2 p k)) := by
  unfold k0_pay4 rowVar
  simp only [divf_apply, broadcast_apply, Ideal.ofBits_def]
  refine congrArg (Ideal.div · _) ((rowSum_col _ _ _ _ _ p).trans (Finset.sum_congr rfl fun k _ => ?_))
  simp only [mulf_apply, subf_apply, broadcastTo_col, pay3_row]

/-- The mean broadcast along the row reads the row's mean at every column. -/
theorem pay5_row (v0 : Vec Ideal S2000x1 .i32) (v8 : Vec Ideal S128x128 .f32) (v12 : Vec Ideal S2000x128 .f32) (v15 v18 : Vec Ideal S128x512 .f32) (v24 : Vec Ideal S1x512 .f32) (p : Fin 2000) (k : Fin 512) :
    (k0_pay5 (F := Ideal) v0 v8 v12 v15 v18 v24 (ix2 p k) : EReal) = rowMean (fun k => k0_pay2 (F := Ideal) v0 v8 v12 v15 v18 v24 (ix2 p k)) := by
  unfold k0_pay5
  simp only [broadcastTo_col, pay3_row]

/-- What the region stores, at `(p, q)`, from an activation array `v27`, a variance column `v38` and a mean array `v39`. -/
theorem pay1_row (v27 : FVec Ideal S2000x512 .f32) (v38 : FVec Ideal S2000x1 .f32) (v39 : FVec Ideal S2000x512 .f32)
    (v46 v50 : Vec Ideal S1x512 .f32) (v57 : Vec Ideal S512x128 .f32) (v60 : Vec Ideal S1x128 .f32) (v64 : Vec Ideal S2000x1 .f32)
    (p : Fin 2000) (q : Fin 128) :
    (k0_pay1 (F := Ideal) v27 v38 v39 v46 v50 v57 v60 v64 (ix2 p q) : EReal)
      = lnOut (fun k => v27 (ix2 p k) - v39 (ix2 p k)) (fun k => v46 (ix2 (0 : Fin 1) k)) (fun k => v50 (ix2 (0 : Fin 1) k))
          (v38 (ix2 p (0 : Fin 1))) (fun k q => v57 (ix2 k q)) (fun q => v60 (ix2 (0 : Fin 1) q)) (v64 (ix2 p (0 : Fin 1))) q := by
  unfold k0_pay1 lnOut
  simp only [truncf_apply, mulf_apply, addf_apply, subf_apply, maximumf_apply, broadcast_apply, rsqrt_apply, shapeCast_self,
    broadcastTo_col, broadcastTo_1b_ab_apply, matmul_row, Ideal.ofBits_def, Ideal.ofBits_zero_f32]

/-! ## The reference's stages at row `i` -/

/-- The reference's mean column at row `i` is the mean of row `i` of its pre-normalisation activations. -/
theorem ref_mean (y0 : (⟨Cert.ReferenceIdeal.S100000x128, .f32⟩ : BufTy).Contents (Elt Ideal)) (y1 : (⟨Cert.ReferenceIdeal.S100000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (i : Fin 100000) :
    (val_main_v15 (F := Ideal) y0 y1 y4 y5 y6 (ix2 i (0 : Fin 1)) : EReal) = rowMean (fun k => val_main_v11 (F := Ideal) y0 y1 y4 y5 y6 (ix2 i k)) := by
  rw [val_main_v15_apply, val_main_v13_apply, val_main_v12_apply, val_main_v14_apply, val_main_cst_1_apply, val_main_cst_apply]
  unfold rowMean
  simp only [Ideal.hostDivf_def, Ideal.ofBits_def, Ideal.ofBits_zero_f32, zero_add]
  exact congrArg (Ideal.div · _) (Finset.sum_congr rfl fun k _ =>
    congrArg (val_main_v11 (F := Ideal) y0 y1 y4 y5 y6) (funext fun a => Fin.ext (by match a with | ⟨0, _⟩ => rfl | ⟨1, _⟩ => rfl)))

/-- The reference's variance column at row `i` is the variance of row `i`. -/
theorem ref_var (y0 : (⟨Cert.ReferenceIdeal.S100000x128, .f32⟩ : BufTy).Contents (Elt Ideal)) (y1 : (⟨Cert.ReferenceIdeal.S100000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (i : Fin 100000) :
    (val_main_v22 (F := Ideal) y0 y1 y4 y5 y6 (ix2 i (0 : Fin 1)) : EReal) = rowVar (fun k => val_main_v11 (F := Ideal) y0 y1 y4 y5 y6 (ix2 i k)) := by
  have e19 : ∀ k : Fin 512, idx_main_v19 (idx_main_v20 (ix2 i (0 : Fin 1))) k = ix2 i k :=
    fun k => funext fun a => Fin.ext (by match a with | ⟨0, _⟩ => rfl | ⟨1, _⟩ => rfl)
  have e16 : ∀ k : Fin 512, idx_main_v16 (ix2 i k) = ix2 i (0 : Fin 1) :=
    fun k => funext fun a => Fin.ext (by match a with | ⟨0, _⟩ => rfl | ⟨1, _⟩ => rfl)
  rw [val_main_v22_apply, val_main_v20_apply, val_main_v19_apply, val_main_v21_apply, val_main_cst_3_apply, val_main_cst_2_apply]
  unfold rowVar
  simp only [Ideal.hostDivf_def, Ideal.ofBits_def, Ideal.ofBits_zero_f32, zero_add]
  refine congrArg (Ideal.div · _) (Finset.sum_congr rfl fun k _ => ?_)
  rw [e19 k, val_main_v18_apply, val_main_v17_apply, val_main_v16_apply, e16 k, ref_mean]
  simp only [Ideal.mulf_def, Ideal.subf_def]

/-- The reference's scaled perceptron output at `(i, q)`, from row `i` of its pre-normalisation activations. -/
theorem ref_out (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (i : Fin 100000) (q : Fin 128) :
    (val_main_v62 (F := Ideal) y0 y1 y2 y4 y5 y6 y7 y8 y9 y10 (ix2 i q) : EReal)
      = lnOut (fun k => val_main_v11 (F := Ideal) y0 y1 y4 y5 y6 (ix2 i k) - rowMean (fun k => val_main_v11 (F := Ideal) y0 y1 y4 y5 y6 (ix2 i k)))
          (fun k => y7 (ix1 k)) (fun k => y8 (ix1 k)) (rowVar (fun k => val_main_v11 (F := Ideal) y0 y1 y4 y5 y6 (ix2 i k)))
          (fun k q => y9 (ix2 k q)) (fun q => y10 (ix1 q)) (val_main_v53 (F := Ideal) y2 (ix1 i)) q := by
  have e38 : idx_main_v38 (idx_main_v39 (ix2 i q)) = ix1 q := funext fun a => Fin.ext (by match a with | ⟨0, _⟩ => rfl)
  have e60 : idx_main_v60 (idx_main_v61 (ix2 i q)) = ix1 i := funext fun a => Fin.ext (by match a with | ⟨0, _⟩ => rfl)
  have el : ∀ k : Fin 512, lidx_main_v37 (ix2 i q) k = ix2 i k := fun k => funext fun a => Fin.ext (by match a with | ⟨0, _⟩ => rfl | ⟨1, _⟩ => rfl)
  have er : ∀ k : Fin 512, ridx_main_v37 (ix2 i q) k = ix2 k q := fun k => funext fun a => Fin.ext (by match a with | ⟨0, _⟩ => rfl | ⟨1, _⟩ => rfl)
  have e23 : ∀ k : Fin 512, idx_main_v23 (ix2 i k) = ix2 i (0 : Fin 1) := fun k => funext fun a => Fin.ext (by match a with | ⟨0, _⟩ => rfl | ⟨1, _⟩ => rfl)
  have e28 : ∀ k : Fin 512, idx_main_v28 (ix2 i k) = ix2 i (0 : Fin 1) := fun k => funext fun a => Fin.ext (by match a with | ⟨0, _⟩ => rfl | ⟨1, _⟩ => rfl)
  have e30 : ∀ k : Fin 512, idx_main_v30 (idx_main_v31 (ix2 i k)) = ix1 k := fun k => funext fun a => Fin.ext (by match a with | ⟨0, _⟩ => rfl)
  have e33 : ∀ k : Fin 512, idx_main_v33 (idx_main_v34 (ix2 i k)) = ix1 k := fun k => funext fun a => Fin.ext (by match a with | ⟨0, _⟩ => rfl)
  rw [val_main_v62_apply, val_main_v40_apply, val_main_v37_apply, val_main_v39_apply, val_main_v38_apply, val_main_v61_apply,
    val_main_v60_apply, e38, e60]
  unfold lnOut
  simp only [Ideal.mulf_def, Ideal.addf_def]
  refine congrArg (fun s : EReal => (s + y10 (ix1 q)) * val_main_v53 (F := Ideal) y2 (ix1 i)) (Finset.sum_congr rfl fun k _ => ?_)
  rw [el k, er k, val_main_v36_apply, val_main_v35_apply, val_main_v32_apply, val_main_v29_apply, val_main_v24_apply,
    val_main_v23_apply, val_main_v28_apply, val_main_v27_apply, val_main_v26_apply, val_main_v25_apply, val_main_cst_4_apply,
    val_main_v31_apply, val_main_v30_apply, val_main_v34_apply, val_main_v33_apply, val_main_call0_v0_apply,
    val_main_call0_cst_apply, e23 k, e28 k, e30 k, e33 k, ref_mean, ref_var]
  simp only [Ideal.mulf_def, Ideal.addf_def, Ideal.subf_def, Ideal.maximumf_def, Ideal.hostUnary_rsqrt_def, Ideal.ofBits_def,
    Ideal.ofBits_zero_f32]

end LnStage

open LnStage in
/-- Row `p` of a block, being row `i` of the arrays: what the region stores is the reference's scaled perceptron output. -/
theorem hs0_row (v0 : Vec Ideal S2000x1 .i32) (v8 : Vec Ideal S128x128 .f32) (v12 : Vec Ideal S2000x128 .f32) (v15 v18 : Vec Ideal S128x512 .f32) (v24 : Vec Ideal S1x512 .f32)
    (v46 v50 : Vec Ideal S1x512 .f32) (v57 : Vec Ideal S512x128 .f32) (v60 : Vec Ideal S1x128 .f32) (v64 : Vec Ideal S2000x1 .f32)
    (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (i : Fin 100000) (p : Fin 2000)
    (hz : ∀ k : Fin 512, (k0_pay2 (F := Ideal) v0 v8 v12 v15 v18 v24 (ix2 p k) : EReal) = val_main_v11 (F := Ideal) y0 y1 y4 y5 y6 (ix2 i k))
    (hg : ∀ k : Fin 512, v46 (ix2 (0 : Fin 1) k) = y7 (ix1 k))
    (hbe : ∀ k : Fin 512, v50 (ix2 (0 : Fin 1) k) = y8 (ix1 k))
    (hw : ∀ (k : Fin 512) (q : Fin 128), v57 (ix2 k q) = y9 (ix2 k q))
    (hb2 : ∀ q : Fin 128, v60 (ix2 (0 : Fin 1) q) = y10 (ix1 q))
    (hns : v64 (ix2 p (0 : Fin 1)) = val_main_v53 (F := Ideal) y2 (ix1 i)) (q : Fin 128) :
    (k0_pay1 (F := Ideal) (k0_pay2 v0 v8 v12 v15 v18 v24) (k0_pay4 v0 v8 v12 v15 v18 v24) (k0_pay5 v0 v8 v12 v15 v18 v24) v46 v50 v57 v60 v64 (ix2 p q) : EReal)
      = val_main_v62 (F := Ideal) y0 y1 y2 y4 y5 y6 y7 y8 y9 y10 (ix2 i q) := by
  rw [pay1_row, ref_out]
  simp only [pay5_row, pay4_row, hz, hg, hbe, hw, hb2, hns]

end Cert.Bridge

end
-- ==== Proof.Region0.lean ====
import proofs.«403315_j6150393168617_2_alg».proof.Proof.ZStage
import proofs.«403315_j6150393168617_2_alg».proof.Proof.LnStage
import Idealize.ShloMosaic.Lib.Pipeline.Value

/-! Region 0 as one whole-array function: each grid point writes back rows 2000·t … 2000·t + 1999 of the result, every row the
    reference's scaled perceptron output at that row; the fifty blocks cover the array. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

namespace Region0

/-! ## The body's stores and loads through whole staging buffers -/

/-- The zero offsets, as the generated rectangles spell them. -/
theorem zero_offsets : (![0, 0] : Fin 2 → Nat) = fun _ => 0 :=
  funext fun a => by match a with | ⟨0, _⟩ => rfl | ⟨1, _⟩ => rfl

/-- What the body leaves in the output's staging buffer is its payload of the input blocks: every load reads a whole
    block, the one store covers the whole buffer. -/
theorem out0_11_eq {F : FTy → Type} [FloatOps F] (x0 : Vec F S2000x128 .f32) (x1 : Vec F S2000x1 .i32) (x2 : Vec F S2000x1 .f32) (x3 : Vec F S128x128 .f32) (x4 : Vec F S128x512 .f32) (x5 : Vec F S128x512 .f32) (x6 : Vec F S1x512 .f32) (x7 : Vec F S1x512 .f32) (x8 : Vec F S1x512 .f32) (x9 : Vec F S512x128 .f32) (x10 : Vec F S1x128 .f32) :
    out0_11 x0 x1 x2 x3 x4 x5 x6 x7 x8 x9 x10
      = k0_pay1 (k0_pay2 x1 x3 x0 x4 x5 x6) (k0_pay4 x1 x3 x0 x4 x5 x6) (k0_pay5 x1 x3 x0 x4 x5 x6) x7 x8 x9 x10 x2 := by
  unfold out0_11
  rw [View.canon_unit_zero zero_offsets]
  simp only [View.ld_unit_zero (S := S2000x1) zero_offsets, View.ld_unit_zero (S := S128x128) zero_offsets, View.ld_unit_zero (S := S2000x128) zero_offsets, View.ld_unit_zero (S := S128x512) zero_offsets, View.ld_unit_zero (S := S1x512) zero_offsets, View.ld_unit_zero (S := S512x128) zero_offsets, View.ld_unit_zero (S := S1x128) zero_offsets]

/-! ## Where each window's block sits in its array -/

/-- The printed index maps over the fifty grid points: the row windows 0, 1, 2 and 11 are at block row `t`, the resident
    windows 3 … 10 at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Row `p` of the feature block at point `t` is row `2000·t + p` of the feature array. -/
theorem blk0_0 (V : KV) (c : Dev nD) (t : Fin cfg0.N) (p : Fin 2000) (j : Fin 128) (i : Fin 100000) (hi : i.val = 2000 * t.val + p.val) :
    (iblk0 V c 0 t : Vec Ideal S2000x128 .f32) (ix2 p j) = (V c main_arg0 : S100000x128.Idx → EReal) (ix2 i j) := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 2000 + 1 * p.val = i.val; omega
  | ⟨1, _⟩ => show win0_0.index t (1 : Fin 2) * 128 + 1 * j.val = j.val; omega

/-- Row `p` of the label block at point `t` is row `2000·t + p` of the label column. -/
theorem blk0_1 (V : KV) (c : Dev nD) (t : Fin cfg0.N) (p : Fin 2000) (i : Fin 100000) (hi : i.val = 2000 * t.val + p.val) :
    (iblk0 V c 1 t : Vec Ideal S2000x1 .i32) (ix2 p (0 : Fin 1)) = (V c main_v21 : S100000x1.Idx → BitVec 32) (ix2 i (0 : Fin 1)) := by
  obtain ⟨-, -, e0, e1, -⟩ := block_index t
  unfold iblk0
  rw [View.read_apply]
  show V c main_v21 _ = V c main_v21 _
  congr 1
  funext a
  apply Fin.ext
  match a with
  | ⟨0, _⟩ => show win0_1.index t (0 : Fin 2) * 2000 + 1 * p.val = i.val; omega
  | ⟨1, _⟩ => show win0_1.index t (1 : Fin 2) * 1 + 1 * 0 = 0; omega

/-- Row `p` of the scale block at point `t` is row `2000·t + p` of the scale column. -/
theorem blk0_2 (V : KV) (c : Dev nD) (t : Fin cfg0.N) (p : Fin 2000) (i : Fin 100000) (hi : i.val = 2000 * t.val + p.val) :
    (iblk0 V c 2 t : Vec Ideal S2000x1 .f32) (ix2 p (0 : Fin 1)) = (V c main_v13 : S100000x1.Idx → EReal) (ix2 i (0 : Fin 1)) := by
  obtain ⟨-, -, -, -, e0, e1, -⟩ := block_index t
  unfold iblk0
  rw [View.read_apply]
  show V c main_v13 _ = V c main_v13 _
  congr 1
  funext a
  apply Fin.ext
  match a with
  | ⟨0, _⟩ => show win0_2.index t (0 : Fin 2) * 2000 + 1 * p.val = i.val; omega
  | ⟨1, _⟩ => show win0_2.index t (1 : Fin 2) * 1 + 1 * 0 = 0; omega

/-- Window 3 is resident: its block at every point is the whole array. -/
theorem blk0_3 (V : KV) (c : Dev nD) (t : Fin cfg0.N) (r : Fin 128) (j : Fin 128) :
    (iblk0 V c 3 t : Vec Ideal S128x128 .f32) (ix2 r j) = (V c main_v22 : S128x128.Idx → EReal) (ix2 r j) := by
  obtain ⟨-, -, -, -, -, -, e0, e1, -⟩ := block_index t
  unfold iblk0
  rw [View.read_apply]
  show V c main_v22 _ = V c main_v22 _
  congr 1
  funext a
  apply Fin.ext
  match a with
  | ⟨0, _⟩ => show win0_3.index t (0 : Fin 2) * 128 + 1 * r.val = r.val; omega
  | ⟨1, _⟩ => show win0_3.index t (1 : Fin 2) * 128 + 1 * j.val = j.val; omega

/-- Window 4 is resident: its block at every point is the whole array. -/
theorem blk0_4 (V : KV) (c : Dev nD) (t : Fin cfg0.N) (r : Fin 128) (j : Fin 512) :
    (iblk0 V c 4 t : Vec Ideal S128x512 .f32) (ix2 r j) = (V c main_v23 : S128x512.Idx → EReal) (ix2 r j) := by
  obtain ⟨-, -, -, -, -, -, -, -, e0, e1, -⟩ := block_index t
  unfold iblk0
  rw [View.read_apply]
  show V c main_v23 _ = V c main_v23 _
  congr 1
  funext a
  apply Fin.ext
  match a with
  | ⟨0, _⟩ => show win0_4.index t (0 : Fin 2) * 128 + 1 * r.val = r.val; omega
  | ⟨1, _⟩ => show win0_4.index t (1 : Fin 2) * 512 + 1 * j.val = j.val; omega

/-- Window 5 is resident: its block at every point is the whole array. -/
theorem blk0_5 (V : KV) (c : Dev nD) (t : Fin cfg0.N) (r : Fin 128) (j : Fin 512) :
    (iblk0 V c 5 t : Vec Ideal S128x512 .f32) (ix2 r j) = (V c main_v24 : S128x512.Idx → EReal) (ix2 r j) := by
  obtain ⟨-, -, -, -, -, -, -, -, -, -, e0, e1, -⟩ := block_index t
  unfold iblk0
  rw [View.read_apply]
  show V c main_v24 _ = V c main_v24 _
  congr 1
  funext a
  apply Fin.ext
  match a with
  | ⟨0, _⟩ => show win0_5.index t (0 : Fin 2) * 128 + 1 * r.val = r.val; omega
  | ⟨1, _⟩ => show win0_5.index t (1 : Fin 2) * 512 + 1 * j.val = j.val; omega

/-- Window 6 is resident: its block at every point is the whole array. -/
theorem blk0_6 (V : KV) (c : Dev nD) (t : Fin cfg0.N) (r : Fin 1) (j : Fin 512) :
    (iblk0 V c 6 t : Vec Ideal S1x512 .f32) (ix2 r j) = (V c main_v25 : S1x512.Idx → EReal) (ix2 r j) := by
  obtain ⟨-, -, -, -, -, -, -, -, -, -, -, -, e0, e1, -⟩ := block_index t
  unfold iblk0
  rw [View.read_apply]
  show V c main_v25 _ = V c main_v25 _
  congr 1
  funext a
  apply Fin.ext
  match a with
  | ⟨0, _⟩ => show win0_6.index t (0 : Fin 2) * 1 + 1 * r.val = r.val; omega
  | ⟨1, _⟩ => show win0_6.index t (1 : Fin 2) * 512 + 1 * j.val = j.val; omega

/-- Window 7 is resident: its block at every point is the whole array. -/
theorem blk0_7 (V : KV) (c : Dev nD) (t : Fin cfg0.N) (r : Fin 1) (j : Fin 512) :
    (iblk0 V c 7 t : Vec Ideal S1x512 .f32) (ix2 r j) = (V c main_v26 : S1x512.Idx → EReal) (ix2 r j) := by
  obtain ⟨-, -, -, -, -, -, -, -, -, -, -, -, -, -, e0, e1, -⟩ := block_index t
  unfold iblk0
  rw [View.read_apply]
  show V c main_v26 _ = V c main_v26 _
  congr 1
  funext a
  apply Fin.ext
  match a with
  | ⟨0, _⟩ => show win0_7.index t (0 : Fin 2) * 1 + 1 * r.val = r.val; omega
  | ⟨1, _⟩ => show win0_7.index t (1 : Fin 2) * 512 + 1 * j.val = j.val; omega

/-- Window 8 is resident: its block at every point is the whole array. -/
theorem blk0_8 (V : KV) (c : Dev nD) (t : Fin cfg0.N) (r : Fin 1) (j : Fin 512) :
    (iblk0 V c 8 t : Vec Ideal S1x512 .f32) (ix2 r j) = (V c main_v27 : S1x512.Idx → EReal) (ix2 r j) := by
  obtain ⟨-, -, -, -, -, -, -, -, -, -, -, -, -, -, -, -, e0, e1, -⟩ := block_index t
  unfold iblk0
  rw [View.read_apply]
  show V c main_v27 _ = V c main_v27 _
  congr 1
  funext a
  apply Fin.ext
  match a with
  | ⟨0, _⟩ => show win0_8.index t (0 : Fin 2) * 1 + 1 * r.val = r.val; omega
  | ⟨1, _⟩ => show win0_8.index t (1 : Fin 2) * 512 + 1 * j.val = j.val; omega

/-- Window 9 is resident: its block at every point is the whole array. -/
theorem blk0_9 (V : KV) (c : Dev nD) (t : Fin cfg0.N) (r : Fin 512) (j : Fin 128) :
    (iblk0 V c 9 t : Vec Ideal S512x128 .f32) (ix2 r j) = (V c main_arg9 : S512x128.Idx → EReal) (ix2 r j) := by
  obtain ⟨-, -, -, -, -, -, -, -, -, -, -, -, -, -, -, -, -, -, e0, e1, -⟩ := block_index t
  unfold iblk0
  rw [View.read_apply]
  show V c main_arg9 _ = V c main_arg9 _
  congr 1
  funext a
  apply Fin.ext
  match a with
  | ⟨0, _⟩ => show win0_9.index t (0 : Fin 2) * 512 + 1 * r.val = r.val; omega
  | ⟨1, _⟩ => show win0_9.index t (1 : Fin 2) * 128 + 1 * j.val = j.val; omega

/-- Window 10 is resident: its block at every point is the whole array. -/
theorem blk0_10 (V : KV) (c : Dev nD) (t : Fin cfg0.N) (r : Fin 1) (j : Fin 128) :
    (iblk0 V c 10 t : Vec Ideal S1x128 .f32) (ix2 r j) = (V c main_v28 : S1x128.Idx → EReal) (ix2 r j) := by
  obtain ⟨-, -, -, -, -, -, -, -, -, -, -, -, -, -, -, -, -, -, -, -, e0, e1, -⟩ := block_index t
  unfold iblk0
  rw [View.read_apply]
  show V c main_v28 _ = V c main_v28 _
  congr 1
  funext a
  apply Fin.ext
  match a with
  | ⟨0, _⟩ => show win0_10.index t (0 : Fin 2) * 1 + 1 * r.val = r.val; omega
  | ⟨1, _⟩ => show win0_10.index t (1 : Fin 2) * 128 + 1 * j.val = j.val; omega

/-! ## One row of a block -/

/-- A row of the payload over blocks that hold the region's inputs at array row `i`: the pre-normalisation row feeds the
    normalised, rectified, projected and scaled row. -/
theorem payload_row (x0 : Vec Ideal S2000x128 .f32) (x1 : Vec Ideal S2000x1 .i32) (x2 : Vec Ideal S2000x1 .f32) (x3 : Vec Ideal S128x128 .f32) (x4 x5 : Vec Ideal S128x512 .f32) (x6 x7 x8 : Vec Ideal S1x512 .f32) (x9 : Vec Ideal S512x128 .f32) (x10 : Vec Ideal S1x128 .f32)
    (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (i : Fin 100000) (p : Fin 2000)
    (hx : ∀ j : Fin 128, x0 (ix2 p j) = y0 (ix2 i j))
    (hl : x1 (ix2 p (0 : Fin 1)) = y1 (ix1 i))
    (hr : 0 ≤ (y1 (ix1 i)).toInt ∧ (y1 (ix1 i)).toInt < 24)
    (hE : ∀ (r j : Fin 128), x3 (ix2 r j) = if h : r.val < 24 then y4 (ix2 (⟨r.val, h⟩ : Fin 24) j) else 0)
    (hA : ∀ (j : Fin 128) (k : Fin 512), x4 (ix2 j k) = y5 (ix2 (⟨j.val, by omega⟩ : Fin 256) k))
    (hB : ∀ (j : Fin 128) (k : Fin 512), x5 (ix2 j k) = y5 (ix2 (⟨128 + j.val, by omega⟩ : Fin 256) k))
    (hb : ∀ k : Fin 512, x6 (ix2 (0 : Fin 1) k) = y6 (ix1 k))
    (hg : ∀ k : Fin 512, x7 (ix2 (0 : Fin 1) k) = y7 (ix1 k))
    (hbe : ∀ k : Fin 512, x8 (ix2 (0 : Fin 1) k) = y8 (ix1 k))
    (hw : ∀ (k : Fin 512) (q : Fin 128), x9 (ix2 k q) = y9 (ix2 k q))
    (hb2 : ∀ q : Fin 128, x10 (ix2 (0 : Fin 1) q) = y10 (ix1 q))
    (hns : x2 (ix2 p (0 : Fin 1)) = val_main_v53 (F := Ideal) y2 (ix1 i)) (q : Fin 128) :
    (k0_pay1 (F := Ideal) (k0_pay2 x1 x3 x0 x4 x5 x6) (k0_pay4 x1 x3 x0 x4 x5 x6) (k0_pay5 x1 x3 x0 x4 x5 x6) x7 x8 x9 x10 x2 (ix2 p q) : EReal)
      = val_main_v62 (F := Ideal) y0 y1 y2 y4 y5 y6 y7 y8 y9 y10 (ix2 i q) :=
  hs0_row x1 x3 x0 x4 x5 x6 x7 x8 x9 x10 x2 y0 y1 y2 y4 y5 y6 y7 y8 y9 y10 i p
    (fun k => z_row x1 x3 x0 x4 x5 x6 y0 y1 y4 y5 y6 i p hx hl hr hE hA hB hb k) hg hbe hw hb2 hns q

/-! ## What a grid point writes back, and the cover -/

/-- Point `t` writes back rows 2000·t … 2000·t + 1999 of the reference's scaled perceptron output. -/
theorem written_block (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal))
    (he : Entry0 V c y0 y1 y2 y4 y5 y6 y7 y8 y9 y10)
    (hr : ∀ i : Fin 100000, 0 ≤ (y1 (ix1 i)).toInt ∧ (y1 (ix1 i)).toInt < 24) (t : Fin cfg0.N) :
    (dat0 (F := Ideal) V c).flushed 11 t
      = ((cfg0.win 11).blk t).view.read (Elt Ideal) (val_main_v62 (F := Ideal) y0 y1 y2 y4 y5 y6 y7 y8 y9 y10) := by
  show (cfg0.win 11).cut (grid0.coords t) ((dat0 V c).after 11 t) = _
  rw [after0_11, out0_11_eq (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)]
  funext j
  obtain ⟨p, q, rfl⟩ : ∃ (p : Fin 2000) (q : Fin 128), j = ix2 p q := ⟨j 0, j 1, eq_ix2 j⟩
  have hN : grid0.N = 50 := N_0
  have ht : t.val < 50 := by have h : t.val < grid0.N := t.isLt; omega
  have hi : (⟨2000 * t.val + p.val, by omega⟩ : Fin 100000).val = 2000 * t.val + p.val := rfl
  obtain ⟨-, -, -, -, -, -, -, -, -, -, -, -, -, -, -, -, -, -, -, -, -, -, e0, e1⟩ := block_index t
  have hemb : (((cfg0.win 11).blk t).view.emb (ix2 p q) : S100000x128.Idx) = ix2 (⟨2000 * t.val + p.val, by omega⟩ : Fin 100000) q := by
    funext a
    apply Fin.ext
    match a with
    | ⟨0, _⟩ => show win0_11.index t (0 : Fin 2) * 2000 + 1 * p.val = 2000 * t.val + p.val; omega
    | ⟨1, _⟩ => show win0_11.index t (1 : Fin 2) * 128 + 1 * q.val = q.val; omega
  rw [View.read_apply]
  show _ = val_main_v62 (F := Ideal) y0 y1 y2 y4 y5 y6 y7 y8 y9 y10 (((cfg0.win 11).blk t).view.emb (ix2 p q))
  rw [hemb]
  exact payload_row (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    y0 y1 y2 y4 y5 y6 y7 y8 y9 y10 ⟨2000 * t.val + p.val, by omega⟩ p
    (fun j => (blk0_0 V c t p j _ hi).trans (he.x _ j))
    ((blk0_1 V c t p _ hi).trans (he.lab _))
    (hr _)
    (fun r j => (blk0_3 V c t r j).trans (he.emb r j))
    (fun j k => (blk0_4 V c t j k).trans (he.w1a j k))
    (fun j k => (blk0_5 V c t j k).trans (he.w1b j k))
    (fun k => (blk0_6 V c t 0 k).trans (he.b1 k))
    (fun k => (blk0_7 V c t 0 k).trans (he.g1 k))
    (fun k => (blk0_8 V c t 0 k).trans (he.be1 k))
    (fun k q => (blk0_9 V c t k q).trans (he.w2 k q))
    (fun q => (blk0_10 V c t 0 q).trans (he.b2 q))
    ((blk0_2 V c t p _ hi).trans (he.ns _)) q

/-- An index of the output array is in point `t`'s block iff each coordinate is in the block's range on its axis. -/
theorem mem_block (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v29).slice (win0_11.rect t)).set ↔ _
  rw [View.set_slice_whole, Rect.mem_set_unit]
  exact Iff.rfl

/-- Row `r` of the output array is in the block of point `r / 2000`. -/
theorem covered (i : S100000x128.Idx) : ∃ t : Fin cfg0.N, (cfg0.win 11).flush t = true ∧ i ∈ ((cfg0.win 11).blk t).view.set := by
  have hN : grid0.N = 50 := N_0
  have h0 : (i 0).val < 100000 := (i 0).isLt
  have h1 : (i 1).val < 128 := (i 1).isLt
  have hlt : (i 0).val / 2000 < cfg0.N := by show (i 0).val / 2000 < grid0.N; omega
  obtain ⟨-, -, -, -, -, -, -, -, -, -, -, -, -, -, -, -, -, -, -, -, -, -, e0, e1⟩ := block_index ⟨(i 0).val / 2000, hlt⟩
  refine ⟨⟨(i 0).val / 2000, hlt⟩, flush0_11 _, ?_⟩
  rw [mem_block]
  intro a
  match a with
  | ⟨0, _⟩ =>
    show win0_11.index ⟨(i 0).val / 2000, hlt⟩ (0 : Fin 2) * 2000 ≤ (i 0).val ∧ (i 0).val < win0_11.index ⟨(i 0).val / 2000, hlt⟩ (0 : Fin 2) * 2000 + 2000
    have e0' : win0_11.index ⟨(i 0).val / 2000, hlt⟩ (0 : Fin 2) = (i 0).val / 2000 := e0
    omega
  | ⟨1, _⟩ =>
    show win0_11.index ⟨(i 0).val / 2000, hlt⟩ (1 : Fin 2) * 128 ≤ (i 1).val ∧ (i 1).val < win0_11.index ⟨(i 0).val / 2000, hlt⟩ (1 : Fin 2) * 128 + 128
    omega

end Region0

/-- After region 0 its output array is the reference's scaled perceptron output, for any entry contents that hold the region's
    inputs and labels inside the table's twenty-four rows. -/
theorem final0 (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal))
    (he : Entry0 V c y0 y1 y2 y4 y5 y6 y7 y8 y9 y10)
    (hr : ∀ i : Fin 100000, 0 ≤ (y1 (ix1 i)).toInt ∧ (y1 (ix1 i)).toInt < 24) :
    ((dat0 (F := Ideal) V c).arrAt 11 cfg0.N : S100000x128.Idx → EReal) = val_main_v62 (F := Ideal) y0 y1 y2 y4 y5 y6 y7 y8 y9 y10 :=
  (dat0 (F := Ideal) V c).arrAt_eq_of_cover 11 (val_main_v62 (F := Ideal) y0 y1 y2 y4 y5 y6 y7 y8 y9 y10)
    (fun t _ => Region0.written_block V c y0 y1 y2 y4 y5 y6 y7 y8 y9 y10 he hr t) Region0.covered

end Cert.Bridge

end
-- ==== Proof.Region1.lean ====
import proofs.«403315_j6150393168617_2_alg».proof.Proof.Args
import Idealize.ShloMosaic.Lib.Pipeline.Value
import Idealize.ShloMosaic.Lib.ValueLayout
import Idealize.ShloMosaic.PureOps.Ideal.Laws

/-! Region 1 (graph convolution 0 with the next layer's source-degree scale) as one whole-array function: a row of the result is
    the rectified product of the destination-scaled aggregated row with the weight matrix plus the bias, times the source-degree
    scale; each grid point writes 2000 rows and the fifty blocks cover the array. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

namespace Region1

/-! ## The body's arithmetic at one entry of a block

    out(p, q) = max ((Σ_k (a(p, k) · nd p) · w(k, q)) + b q) 0 · ns p -/

/-- A column spread over the lanes reads, at (p, c), the column's entry p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The matrix product's left operand is read at (row of the result, contraction coordinate) … -/
theorem lhs_k1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- … and its right operand at (contraction coordinate, column of the result). -/
theorem rhs_k1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's matrix product into the zero accumulator, at (p, q): the sum over the 128 contraction coordinates. -/
theorem kmatmul_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k1_0 _ _
    | ⟨1, _⟩ => exact (lhs_k1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k1_0 _ _).trans hk
    | ⟨1, _⟩ => exact rhs_k1_1 _ _)
  rw [el, er]

/-- The body's result at (p, q) as a formula of its five loaded blocks. -/
theorem pay_apply (v0 : S2000x128.Idx → EReal) (v2 : S2000x1.Idx → EReal) (v7 : S128x128.Idx → EReal) (v10 : S1x128.Idx → EReal)
    (v16 : S2000x1.Idx → EReal) (p : Fin 2000) (q : Fin 128) :
    k1_pay1 (F := Ideal) v0 v2 v7 v10 v16 (ix2 p q)
      = max ((∑ k : Fin 128, v0 (ix2 p k) * v2 (ix2 p (0 : Fin 1)) * v7 (ix2 k q)) + v10 (ix2 (0 : Fin 1) q)) (Ideal.ofBits .f32 0x00000000#32)
          * v16 (ix2 p (0 : Fin 1)) := by
  unfold k1_pay1
  simp only [truncf_apply, mulf_apply, addf_apply, maximumf_apply, broadcast_apply, shapeCast_self, bcast_col_apply,
    broadcastTo_1b_ab_apply, kmatmul_apply, Ideal.ofBits_def]

/-! ## The reference's scaled layer-0 output at one entry -/

theorem e82 (i : Fin 100000) (q : Fin 128) : idx_main_v81 (idx_main_v82 (ix2 i q)) = ix1 i :=
  funext fun a => Fin.ext (by match a with | ⟨0, _⟩ => rfl)
theorem e78 (i : Fin 100000) (q : Fin 128) : idx_main_v77 (idx_main_v78 (ix2 i q)) = ix1 q :=
  funext fun a => Fin.ext (by match a with | ⟨0, _⟩ => rfl)
theorem e74 (i : Fin 100000) (k : Fin 128) : idx_main_v73 (idx_main_v74 (ix2 i k)) = ix1 i :=
  funext fun a => Fin.ext (by match a with | ⟨0, _⟩ => rfl)
theorem e76l (i : Fin 100000) (q k : Fin 128) : lidx_main_v76 (ix2 i q) k = ix2 i k :=
  funext fun a => Fin.ext (by match a with | ⟨0, _⟩ => rfl | ⟨1, _⟩ => rfl)
theorem e76r (i : Fin 100000) (q k : Fin 128) : ridx_main_v76 (ix2 i q) k = ix2 k q :=
  funext fun a => Fin.ext (by match a with | ⟨0, _⟩ => rfl | ⟨1, _⟩ => rfl)

/-- The reference's stage at (i, q) as the same formula of the aggregated messages, the two degree scales, the weights and the bias. -/
theorem ref_apply (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (i : Fin 100000) (q : Fin 128) :
    val_main_v83 (F := Ideal) y0 y1 y2 y3 y4 y5 y6 y7 y8 y9 y10 y11 y12 (ix2 i q)
      = max ((∑ k : Fin 128, val_main_v72 (F := Ideal) y0 y1 y2 y3 y4 y5 y6 y7 y8 y9 y10 (ix2 i k) * val_main_v59 (F := Ideal) y3 (ix1 i) * y11 (ix2 k q)) + y12 (ix1 q)) (Ideal.ofBits .f32 0x00000000#32)
          * val_main_v53 (F := Ideal) y2 (ix1 i) := by
  have hs : ∀ k : Fin 128, val_main_v75 (F := Ideal) y0 y1 y2 y3 y4 y5 y6 y7 y8 y9 y10 (lidx_main_v76 (ix2 i q) k) * y11 (ridx_main_v76 (ix2 i q) k)
      = val_main_v72 (F := Ideal) y0 y1 y2 y3 y4 y5 y6 y7 y8 y9 y10 (ix2 i k) * val_main_v59 (F := Ideal) y3 (ix1 i) * y11 (ix2 k q) := fun k => by
    rewrite [e76l, e76r, val_main_v75_apply, val_main_v74_apply, val_main_v73_apply, e74]
    simp only [Ideal.mulf_def]
  rewrite [val_main_v83_apply, val_main_v82_apply, val_main_v81_apply, e82, val_main_v80_apply, val_main_call3_v0_apply,
    val_main_call3_cst_apply, val_main_v79_apply, val_main_v78_apply, val_main_v77_apply, e78, val_main_v76_apply,
    Finset.sum_congr rfl fun k _ => hs k]
  simp only [Ideal.mulf_def, Ideal.addf_def, Ideal.maximumf_def, Ideal.ofBits_def]

/-- One entry of the body's result, over blocks that hold row i of the aggregated messages, the two scales at i, the weights and
    the bias, is the reference's stage at (i, q). -/
theorem row_eq (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal))
    (v0 : S2000x128.Idx → EReal) (v2 : S2000x1.Idx → EReal) (v7 : S128x128.Idx → EReal) (v10 : S1x128.Idx → EReal) (v16 : S2000x1.Idx → EReal)
    (p : Fin 2000) (i : Fin 100000) (q : Fin 128)
    (h0 : ∀ k : Fin 128, v0 (ix2 p k) = val_main_v72 (F := Ideal) y0 y1 y2 y3 y4 y5 y6 y7 y8 y9 y10 (ix2 i k))
    (h2 : v2 (ix2 p (0 : Fin 1)) = val_main_v59 (F := Ideal) y3 (ix1 i))
    (h16 : v16 (ix2 p (0 : Fin 1)) = val_main_v53 (F := Ideal) y2 (ix1 i))
    (h7 : ∀ k : Fin 128, v7 (ix2 k q) = y11 (ix2 k q))
    (h10 : v10 (ix2 (0 : Fin 1) q) = y12 (ix1 q)) :
    k1_pay1 (F := Ideal) v0 v2 v7 v10 v16 (ix2 p q) = val_main_v83 (F := Ideal) y0 y1 y2 y3 y4 y5 y6 y7 y8 y9 y10 y11 y12 (ix2 i q) := by
  have hs : ∀ k : Fin 128, v0 (ix2 p k) * v2 (ix2 p (0 : Fin 1)) * v7 (ix2 k q)
      = val_main_v72 (F := Ideal) y0 y1 y2 y3 y4 y5 y6 y7 y8 y9 y10 (ix2 i k) * val_main_v59 (F := Ideal) y3 (ix1 i) * y11 (ix2 k q) := fun k => by rw [h0 k, h2, h7 k]
  rw [pay_apply, ref_apply, Finset.sum_congr rfl fun k _ => hs k, h16, h10]

/-! ## From the fifty row blocks to the array -/

theorem hz1 : (![0, 0] : Fin 2 → Nat) = fun _ => 0 := funext fun a => by match a with | ⟨0, _⟩ => rfl | ⟨1, _⟩ => rfl

/-- What the body leaves in the output's staging buffer is its arithmetic on the five input blocks (the loads and the one store
    go through the whole buffers). -/
theorem out1_5_eq (x0 : Vec Ideal S2000x128 .f32) (x1 x2 : Vec Ideal S2000x1 .f32) (x3 : Vec Ideal S128x128 .f32) (x4 : Vec Ideal S1x128 .f32) :
    out1_5 (F := Ideal) x0 x1 x2 x3 x4 = k1_pay1 (F := Ideal) x0 x1 x3 x4 x2 := by
  unfold out1_5
  rw [View.canon_unit_zero hz1]
  simp only [View.ld_unit_zero (S := S2000x128) hz1, View.ld_unit_zero (S := S2000x1) hz1, View.ld_unit_zero (S := S128x128) hz1,
    View.ld_unit_zero (S := S1x128) hz1]

/-- The printed index maps over the grid: the four row windows are at block (t, 0) at point t, the weights and the bias at (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of point t's block of the aggregated messages is entry (2000 t + p, k) of the array. -/
theorem iblk1_0_apply (V : KV) (c : Dev nD) (t : Fin cfg1.N) (p : Fin 2000) (k : Fin 128) (i : Fin 100000) (hi : i.val = 2000 * t.val + p.val) :
    (iblk1 (F := Ideal) V c 0 t : S2000x128.Idx → EReal) (ix2 p k) = (V c main_v40 : S100000x128.Idx → EReal) (ix2 i k) := by
  obtain ⟨e0, e1, -⟩ := idx_facts1 t
  unfold iblk1
  rw [View.read_apply]
  show V c main_v40 _ = V c main_v40 _
  congr 1
  funext a
  apply Fin.ext
  match a with
  | ⟨0, _⟩ => show win1_0.index t (0 : Fin 2) * 2000 + 1 * p.val = i.val; omega
  | ⟨1, _⟩ => show win1_0.index t (1 : Fin 2) * 128 + 1 * k.val = k.val; omega

/-- Entry p of point t's block of the destination-degree column is entry 2000 t + p of the column. -/
theorem iblk1_1_apply (V : KV) (c : Dev nD) (t : Fin cfg1.N) (p : Fin 2000) (i : Fin 100000) (hi : i.val = 2000 * t.val + p.val) :
    (iblk1 (F := Ideal) V c 1 t : S2000x1.Idx → EReal) (ix2 p (0 : Fin 1)) = (V c main_v20 : S100000x1.Idx → EReal) (ix2 i (0 : Fin 1)) := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t (0 : Fin 2) * 2000 + 1 * p.val = i.val; omega
  | ⟨1, _⟩ => show win1_1.index t (1 : Fin 2) * 1 + 1 * 0 = 0; omega

/-- The same for the source-degree column. -/
theorem iblk1_2_apply (V : KV) (c : Dev nD) (t : Fin cfg1.N) (p : Fin 2000) (i : Fin 100000) (hi : i.val = 2000 * t.val + p.val) :
    (iblk1 (F := Ideal) V c 2 t : S2000x1.Idx → EReal) (ix2 p (0 : Fin 1)) = (V c main_v13 : S100000x1.Idx → EReal) (ix2 i (0 : Fin 1)) := by
  obtain ⟨-, -, -, -, e0, e1, -⟩ := idx_facts1 t
  unfold iblk1
  rw [View.read_apply]
  show V c main_v13 _ = V c main_v13 _
  congr 1
  funext a
  apply Fin.ext
  match a with
  | ⟨0, _⟩ => show win1_2.index t (0 : Fin 2) * 2000 + 1 * p.val = i.val; omega
  | ⟨1, _⟩ => show win1_2.index t (1 : Fin 2) * 1 + 1 * 0 = 0; omega

/-- The weights' one block is the whole matrix at every point. -/
theorem iblk1_3_apply (V : KV) (c : Dev nD) (t : Fin cfg1.N) (k q : Fin 128) :
    (iblk1 (F := Ideal) V c 3 t : S128x128.Idx → EReal) (ix2 k q) = (V c main_arg11 : S128x128.Idx → EReal) (ix2 k q) := by
  obtain ⟨-, -, -, -, -, -, e0, e1, -⟩ := idx_facts1 t
  unfold iblk1
  rw [View.read_apply]
  show V c main_arg11 _ = V c main_arg11 _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The bias row's one block is the whole row at every point. -/
theorem iblk1_4_apply (V : KV) (c : Dev nD) (t : Fin cfg1.N) (q : Fin 128) :
    (iblk1 (F := Ideal) V c 4 t : S1x128.Idx → EReal) (ix2 (0 : Fin 1) q) = (V c main_v41 : S1x128.Idx → EReal) (ix2 (0 : Fin 1) q) := by
  obtain ⟨-, -, -, -, -, -, -, -, e0, e1, -⟩ := idx_facts1 t
  unfold iblk1
  rw [View.read_apply]
  show V c main_v41 _ = V c main_v41 _
  congr 1
  funext a
  apply Fin.ext
  match a with
  | ⟨0, _⟩ => show win1_4.index t (0 : Fin 2) * 1 + 1 * 0 = 0; omega
  | ⟨1, _⟩ => show win1_4.index t (1 : Fin 2) * 128 + 1 * q.val = q.val; omega

/-- Point t's result block at (p, q) is the reference's stage at (2000 t + p, q): the row lemma at the five input blocks. -/
theorem block_row (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal))
    (he : Entry1 V c (val_main_v72 (F := Ideal) y0 y1 y2 y3 y4 y5 y6 y7 y8 y9 y10) (val_main_v59 (F := Ideal) y3) (val_main_v53 (F := Ideal) y2) y11 y12)
    (t : Fin cfg1.N) (p : Fin 2000) (q : Fin 128) (i : Fin 100000) (hi : i.val = 2000 * t.val + p.val) :
    k1_pay1 (F := Ideal) (iblk1 V c 0 t) (iblk1 V c 1 t) (iblk1 V c 3 t) (iblk1 V c 4 t) (iblk1 V c 2 t) (ix2 p q)
      = val_main_v83 (F := Ideal) y0 y1 y2 y3 y4 y5 y6 y7 y8 y9 y10 y11 y12 (ix2 i q) :=
  row_eq y0 y1 y2 y3 y4 y5 y6 y7 y8 y9 y10 y11 y12 (iblk1 V c 0 t) (iblk1 V c 1 t) (iblk1 V c 3 t) (iblk1 V c 4 t) (iblk1 V c 2 t) p i q
    (fun k => (iblk1_0_apply V c t p k i hi).trans (he.agg i k))
    ((iblk1_1_apply V c t p i hi).trans (he.nd i))
    ((iblk1_2_apply V c t p i hi).trans (he.ns i))
    (fun k => (iblk1_3_apply V c t k q).trans (he.w k q))
    ((iblk1_4_apply V c t q).trans (he.b q))

/-- The output window's blocks are whole (2000 divides 100000): what is written back of a staging buffer is the buffer. -/
theorem cut_apply (X : S2000x128.Idx → EReal) (t : Fin cfg1.N) (p : Fin 2000) (q : Fin 128) :
    (cfg1.win 5).cut (grid1.coords t) X (ix2 p q) = X (ix2 p q) := rfl

/-- Block t of a whole-array function at (p, q) is the function at (2000 t + p, q). -/
theorem read_blk (G : S100000x128.Idx → EReal) (t : Fin cfg1.N) (p : Fin 2000) (q : Fin 128) (i : Fin 100000) (hi : i.val = 2000 * t.val + p.val) :
    ((cfg1.win 5).blk t).view.read (Elt Ideal) G (ix2 p q) = G (ix2 i q) := by
  obtain ⟨-, -, -, -, -, -, -, -, -, -, e0, e1⟩ := idx_facts1 t
  rw [View.read_apply]
  show G _ = G _
  refine congrArg G (funext fun a => Fin.ext ?_)
  match a with
  | ⟨0, _⟩ => show win1_5.index t (0 : Fin 2) * 2000 + 1 * p.val = i.val; omega
  | ⟨1, _⟩ => show win1_5.index t (1 : Fin 2) * 128 + 1 * q.val = q.val; omega

/-- WHAT POINT t WRITES BACK is block t of the reference's stage. -/
theorem flushed1_eq (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal))
    (he : Entry1 V c (val_main_v72 (F := Ideal) y0 y1 y2 y3 y4 y5 y6 y7 y8 y9 y10) (val_main_v59 (F := Ideal) y3) (val_main_v53 (F := Ideal) y2) y11 y12) (t : Fin cfg1.N) :
    (dat1 (F := Ideal) V c).flushed 5 t = ((cfg1.win 5).blk t).view.read (Elt Ideal) (val_main_v83 (F := Ideal) y0 y1 y2 y3 y4 y5 y6 y7 y8 y9 y10 y11 y12) := by
  show (cfg1.win 5).cut (grid1.coords t) ((dat1 V c).after 5 t) = _
  rw [after1_5, out1_5_eq (iblk1 V c 0 t) (iblk1 V c 1 t) (iblk1 V c 2 t) (iblk1 V c 3 t) (iblk1 V c 4 t)]
  have hN : cfg1.N = 50 := N_1
  have ht : t.val < 50 := hN ▸ t.isLt
  funext j
  obtain ⟨p, q, rfl⟩ : ∃ (p : Fin 2000) (q : Fin 128), j = ix2 p q := ⟨j 0, j 1, eq_ix2 j⟩
  have hp : p.val < 2000 := p.isLt
  exact (cut_apply (k1_pay1 (F := Ideal) (iblk1 V c 0 t) (iblk1 V c 1 t) (iblk1 V c 3 t) (iblk1 V c 4 t) (iblk1 V c 2 t)) t p q).trans
    ((block_row V c y0 y1 y2 y3 y4 y5 y6 y7 y8 y9 y10 y11 y12 he t p q ⟨2000 * t.val + p.val, by omega⟩ rfl).trans
      (read_blk (val_main_v83 (F := Ideal) y0 y1 y2 y3 y4 y5 y6 y7 y8 y9 y10 y11 y12) t p q ⟨2000 * t.val + p.val, by omega⟩ rfl).symm)

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- Row r of the output array lies in the block of point r / 2000. -/
theorem cover1 (i : S100000x128.Idx) : ∃ t : Fin cfg1.N, (cfg1.win 5).flush t = true ∧ i ∈ ((cfg1.win 5).blk t).view.set := by
  have hN : grid1.N = 50 := N_1
  have hi0 : (i 0).val < 100000 := (i 0).isLt
  have hi1 : (i 1).val < 128 := (i 1).isLt
  have hlt : (i 0).val / 2000 < cfg1.N := by show (i 0).val / 2000 < grid1.N; omega
  obtain ⟨-, -, -, -, -, -, -, -, -, -, e0, e1⟩ := idx_facts1 ⟨(i 0).val / 2000, hlt⟩
  have e0' : win1_5.index ⟨(i 0).val / 2000, hlt⟩ (0 : Fin 2) = (i 0).val / 2000 := e0
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    omega

end Region1

/-- After region 1 its output array is the reference's scaled layer-0 output. -/
theorem final1 (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal))
    (he : Entry1 V c (val_main_v72 (F := Ideal) y0 y1 y2 y3 y4 y5 y6 y7 y8 y9 y10) (val_main_v59 (F := Ideal) y3) (val_main_v53 (F := Ideal) y2) y11 y12) :
    ((dat1 (F := Ideal) V c).arrAt 5 cfg1.N : S100000x128.Idx → EReal) = val_main_v83 (F := Ideal) y0 y1 y2 y3 y4 y5 y6 y7 y8 y9 y10 y11 y12 :=
  (dat1 (F := Ideal) V c).arrAt_eq_of_cover 5 (val_main_v83 (F := Ideal) y0 y1 y2 y3 y4 y5 y6 y7 y8 y9 y10 y11 y12)
    (fun t _ => Region1.flushed1_eq V c y0 y1 y2 y3 y4 y5 y6 y7 y8 y9 y10 y11 y12 he t) Region1.cover1

end Cert.Bridge

end
-- ==== Proof.Region2.lean ====
import proofs.«403315_j6150393168617_2_alg».proof.Proof.Args
import Idealize.ShloMosaic.Lib.Pipeline.Value
import Idealize.ShloMosaic.PureOps.Ideal.Laws

/-! Region 2 (the last graph convolution) as one whole-array function: a row of the result is the rectified product of the
    destination-scaled aggregated row with the weight matrix plus the bias; each grid point writes 5000 rows and the twenty blocks
    cover the array. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

namespace Region2

/-! ## One row of the block: the kernel's arithmetic read at an index -/

/-- On the row axis the left operand of the product is read at the result's row. -/
theorem lhs_fin_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the contracted axis the left operand is read at the contraction's coordinate. -/
theorem lhs_fin_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the contracted axis the right operand is read at the contraction's coordinate. -/
theorem rhs_fin_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the column axis the right operand is read at the result's column. -/
theorem rhs_fin_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at row `p` and column `q`: the sum over the 128 inner coordinates. -/
theorem matmul_fin (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q) = ∑ k : Fin 128, a (ix2 p k) * b (ix2 k q) := by
  refine (Ideal.matmul_constant_zero_apply dot_S5000x128_S128x128_S5000x128_1_0_0_1_n_n none a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_fin_0 _ _
    | ⟨1, _⟩ => exact (lhs_fin_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_fin_0 _ _).trans hk
    | ⟨1, _⟩ => exact rhs_fin_1 _ _)
  rw [el, er]

/-- A column broadcast along the rows reads the column's entry of the row. -/
theorem bcast_col (x : S5000x1.Idx → EReal) (h : S5000x1.Broadcasts S5000x128) (p : Fin 5000) (q : Fin 128) :
    broadcastTo S5000x128 x h (ix2 p q) = x (ix2 p (0 : Fin 1)) :=
  broadcastTo_apply x h (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row broadcast down the rows reads the row's entry of the column. -/
theorem bcast_row (x : S1x128.Idx → EReal) (h : S1x128.Broadcasts S5000x128) (p : Fin 5000) (q : Fin 128) :
    broadcastTo S5000x128 x h (ix2 p q) = x (ix2 (0 : Fin 1) q) :=
  broadcastTo_apply x h (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The kernel's result block at row `p`, column `q`: the rectified sum of the scaled row against the weight column, plus the bias. -/
theorem pay_row (v0 : S5000x128.Idx → EReal) (v2 : S5000x1.Idx → EReal) (v7 : S128x128.Idx → EReal) (v10 : S1x128.Idx → EReal) (p : Fin 5000) (q : Fin 128) :
    k2_pay1 (F := Ideal) v0 v2 v7 v10 (ix2 p q)
      = max ((∑ k : Fin 128, (v0 (ix2 p k) * v2 (ix2 p (0 : Fin 1))) * v7 (ix2 k q)) + v10 (ix2 (0 : Fin 1) q)) (Ideal.ofBits .f32 0x00000000#32) := by
  unfold k2_pay1
  rw [maximumf_apply, addf_apply, broadcast_apply, matmul_fin, bcast_row, shapeCast_self]
  simp only [truncf_apply, mulf_apply, shapeCast_self, bcast_col]
  rfl

/-- The reference's result at row `i`, column `q`: the rectified sum of the scaled aggregated row against the weight column, plus the bias. -/
theorem ref_row (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal)) (i : Fin 100000) (q : Fin 128) :
    val_main_v101 (F := Ideal) y0 y1 y2 y3 y4 y5 y6 y7 y8 y9 y10 y11 y12 y13 y14 (ix2 i q)
      = max ((∑ k : Fin 128, (val_main_v93 (F := Ideal) y0 y1 y2 y3 y4 y5 y6 y7 y8 y9 y10 y11 y12 (ix2 i k) * val_main_v59 (F := Ideal) y3 (ix1 i)) * y13 (ix2 k q)) + y14 (ix1 q)) (Ideal.ofBits .f32 0x00000000#32) := by
  have el : ∀ k : Fin 128, lidx_main_v97 (ix2 i q) k = ix2 i k := fun k => funext fun a => Fin.ext (by match a with | ⟨0, _⟩ => rfl | ⟨1, _⟩ => rfl)
  have er : ∀ k : Fin 128, ridx_main_v97 (ix2 i q) k = ix2 k q := fun k => funext fun a => Fin.ext (by match a with | ⟨0, _⟩ => rfl | ⟨1, _⟩ => rfl)
  have e95 : ∀ k : Fin 128, idx_main_v94 (idx_main_v95 (ix2 i k)) = ix1 i := fun k => funext fun a => Fin.ext (by match a with | ⟨0, _⟩ => rfl)
  have e99 : idx_main_v98 (idx_main_v99 (ix2 i q)) = ix1 q := funext fun a => Fin.ext (by match a with | ⟨0, _⟩ => rfl)
  rw [val_main_v101_apply, val_main_v100_apply, val_main_v97_apply, val_main_v99_apply, val_main_v98_apply, val_main_call4_v0_apply, val_main_call4_cst_apply, e99]
  rw [Ideal.maximumf_def, Ideal.addf_def, Ideal.ofBits_def]
  refine congrArg (fun s => max (s + y14 (ix1 q)) (Ideal.ofBits .f32 0x00000000#32)) (Finset.sum_congr rfl fun k _ => ?_)
  rw [el k, er k, val_main_v96_apply, val_main_v95_apply, val_main_v94_apply, e95 k, Ideal.mulf_def]

/-! ## From the twenty blocks to the array -/

/-- The zero offsets of a whole-buffer access, as the constant function. -/
theorem zero_offsets : (![0, 0] : Fin 2 → Nat) = fun _ => 0 := funext fun a => by match a with | ⟨0, _⟩ => rfl | ⟨1, _⟩ => rfl

/-- The printed index maps over the twenty points: the three row windows sit at block row `t`, the weight matrix and the bias
    row at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the body leaves in the output's buffer is its one stored value. -/
theorem out_eq (x0 : Vec Ideal S5000x128 .f32) (x1 : Vec Ideal S5000x1 .f32) (x2 : Vec Ideal S128x128 .f32) (x3 : Vec Ideal S1x128 .f32) :
    out2_4 (F := Ideal) x0 x1 x2 x3 = k2_pay1 (F := Ideal) x0 x1 x2 x3 := by
  unfold out2_4
  rw [View.canon_unit_zero zero_offsets]
  simp only [View.ld_unit_zero (S := S5000x128) zero_offsets, View.ld_unit_zero (S := S5000x1) zero_offsets, View.ld_unit_zero (S := S128x128) zero_offsets, View.ld_unit_zero (S := S1x128) zero_offsets]

/-- The aggregated block of point `t` is rows `5000 t …` of the aggregated array. -/
theorem blk0_read (V : KV) (c : Dev nD) (t : Fin cfg2.N) (p : Fin 5000) (j : Fin 128) (i : Fin 100000) (hi : i.val = 5000 * t.val + p.val) :
    (iblk2 V c 0 t : S5000x128.Idx → EReal) (ix2 p j) = (V c main_v53 : S100000x128.Idx → EReal) (ix2 i j) := by
  obtain ⟨e0, e1, -⟩ := idx_facts t
  unfold iblk2
  rw [View.read_apply]
  show (V c main_v53 : S100000x128.Idx → EReal) _ = (V c main_v53 : S100000x128.Idx → EReal) _
  refine congrArg (V c main_v53 : S100000x128.Idx → EReal) (funext fun a => Fin.ext ?_)
  match a with
  | ⟨0, _⟩ => show win2_0.index t (0 : Fin 2) * 5000 + 1 * p.val = i.val; omega
  | ⟨1, _⟩ => show win2_0.index t (1 : Fin 2) * 128 + 1 * j.val = j.val; omega

/-- The scale block of point `t` is rows `5000 t …` of the scale column. -/
theorem blk1_read (V : KV) (c : Dev nD) (t : Fin cfg2.N) (p : Fin 5000) (i : Fin 100000) (hi : i.val = 5000 * t.val + p.val) :
    (iblk2 V c 1 t : S5000x1.Idx → EReal) (ix2 p (0 : Fin 1)) = (V c main_v20 : S100000x1.Idx → EReal) (ix2 i (0 : Fin 1)) := by
  obtain ⟨-, -, e0, e1, -⟩ := idx_facts t
  unfold iblk2
  rw [View.read_apply]
  show (V c main_v20 : S100000x1.Idx → EReal) _ = (V c main_v20 : S100000x1.Idx → EReal) _
  refine congrArg (V c main_v20 : S100000x1.Idx → EReal) (funext fun a => Fin.ext ?_)
  match a with
  | ⟨0, _⟩ => show win2_1.index t (0 : Fin 2) * 5000 + 1 * p.val = i.val; omega
  | ⟨1, _⟩ => show win2_1.index t (1 : Fin 2) * 1 + 1 * 0 = 0; omega

/-- The weight block at every point is the weight matrix. -/
theorem blk2_read (V : KV) (c : Dev nD) (t : Fin cfg2.N) (j q : Fin 128) :
    (iblk2 V c 2 t : S128x128.Idx → EReal) (ix2 j q) = (V c main_arg13 : S128x128.Idx → EReal) (ix2 j q) := by
  obtain ⟨-, -, -, -, e0, e1, -⟩ := idx_facts t
  unfold iblk2
  rw [View.read_apply]
  show (V c main_arg13 : S128x128.Idx → EReal) _ = (V c main_arg13 : S128x128.Idx → EReal) _
  refine congrArg (V c main_arg13 : S128x128.Idx → EReal) (funext fun a => Fin.ext ?_)
  match a with
  | ⟨0, _⟩ => show win2_2.index t (0 : Fin 2) * 128 + 1 * j.val = j.val; omega
  | ⟨1, _⟩ => show win2_2.index t (1 : Fin 2) * 128 + 1 * q.val = q.val; omega

/-- The bias block at every point is the bias row. -/
theorem blk3_read (V : KV) (c : Dev nD) (t : Fin cfg2.N) (q : Fin 128) :
    (iblk2 V c 3 t : S1x128.Idx → EReal) (ix2 (0 : Fin 1) q) = (V c main_v54 : S1x128.Idx → EReal) (ix2 (0 : Fin 1) q) := by
  obtain ⟨-, -, -, -, -, -, e0, e1, -⟩ := idx_facts t
  unfold iblk2
  rw [View.read_apply]
  show (V c main_v54 : S1x128.Idx → EReal) _ = (V c main_v54 : S1x128.Idx → EReal) _
  refine congrArg (V c main_v54 : S1x128.Idx → EReal) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- THE ROW: the kernel's arithmetic on blocks that hold row `i` of the aggregated messages, its scale, the weight matrix and
    the bias is the reference's result at row `i`. -/
theorem row_eq (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal))
    (v0 : S5000x128.Idx → EReal) (v2 : S5000x1.Idx → EReal) (v7 : S128x128.Idx → EReal) (v10 : S1x128.Idx → EReal)
    (p : Fin 5000) (q : Fin 128) (i : Fin 100000)
    (h0 : ∀ k : Fin 128, v0 (ix2 p k) = val_main_v93 (F := Ideal) y0 y1 y2 y3 y4 y5 y6 y7 y8 y9 y10 y11 y12 (ix2 i k))
    (h2 : v2 (ix2 p (0 : Fin 1)) = val_main_v59 (F := Ideal) y3 (ix1 i))
    (h7 : ∀ k r : Fin 128, v7 (ix2 k r) = y13 (ix2 k r))
    (h10 : ∀ r : Fin 128, v10 (ix2 (0 : Fin 1) r) = y14 (ix1 r)) :
    k2_pay1 (F := Ideal) v0 v2 v7 v10 (ix2 p q) = val_main_v101 (F := Ideal) y0 y1 y2 y3 y4 y5 y6 y7 y8 y9 y10 y11 y12 y13 y14 (ix2 i q) := by
  rw [pay_row, ref_row, h2, h10]
  refine congrArg (fun s => max (s + y14 (ix1 q)) (Ideal.ofBits .f32 0x00000000#32)) (Finset.sum_congr rfl fun k _ => ?_)
  rw [h0, h7]

/-- Point `t`'s result block, row `p`, is the reference's result at row `5000 t + p`. -/
theorem block_row (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal)) (V : KV) (c : Dev nD)
    (he : Entry2 V c (val_main_v93 (F := Ideal) y0 y1 y2 y3 y4 y5 y6 y7 y8 y9 y10 y11 y12) (val_main_v59 (F := Ideal) y3) y13 y14)
    (t : Fin cfg2.N) (p : Fin 5000) (q : Fin 128) (i : Fin 100000) (hi : i.val = 5000 * t.val + p.val) :
    k2_pay1 (F := Ideal) (iblk2 V c 0 t) (iblk2 V c 1 t) (iblk2 V c 2 t) (iblk2 V c 3 t) (ix2 p q)
      = val_main_v101 (F := Ideal) y0 y1 y2 y3 y4 y5 y6 y7 y8 y9 y10 y11 y12 y13 y14 (ix2 i q) :=
  row_eq y0 y1 y2 y3 y4 y5 y6 y7 y8 y9 y10 y11 y12 y13 y14 (iblk2 V c 0 t) (iblk2 V c 1 t) (iblk2 V c 2 t) (iblk2 V c 3 t) p q i
    (fun k => (blk0_read V c t p k i hi).trans (he.agg i k))
    ((blk1_read V c t p i hi).trans (he.nd i))
    (fun k r => (blk2_read V c t k r).trans (he.w k r))
    (fun r => (blk3_read V c t r).trans (he.b r))

/-- The output window is not cut: what is written back of a staging buffer is the buffer. -/
theorem cut_apply (X : S5000x128.Idx → EReal) (t : Fin cfg2.N) (p : Fin 5000) (q : Fin 128) :
    (cfg2.win 4).cut (grid2.coords t) X (ix2 p q) = X (ix2 p q) := rfl

/-- Block `t` of a whole-array function, row `p`, is the function at row `5000 t + p`. -/
theorem read_blk (G : S100000x128.Idx → EReal) (t : Fin cfg2.N) (p : Fin 5000) (q : Fin 128) (i : Fin 100000) (hi : i.val = 5000 * t.val + p.val) :
    ((cfg2.win 4).blk t).view.read (Elt Ideal) G (ix2 p q) = G (ix2 i q) := by
  obtain ⟨-, -, -, -, -, -, -, -, e0, e1⟩ := idx_facts t
  rw [View.read_apply]
  show G _ = G _
  refine congrArg G (funext fun a => Fin.ext ?_)
  match a with
  | ⟨0, _⟩ => show win2_4.index t (0 : Fin 2) * 5000 + 1 * p.val = i.val; omega
  | ⟨1, _⟩ => show win2_4.index t (1 : Fin 2) * 128 + 1 * q.val = q.val; omega

/-- WHAT POINT `t` WRITES BACK is block `t` of the reference's result. -/
theorem flushed_eq (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal)) (V : KV) (c : Dev nD)
    (he : Entry2 V c (val_main_v93 (F := Ideal) y0 y1 y2 y3 y4 y5 y6 y7 y8 y9 y10 y11 y12) (val_main_v59 (F := Ideal) y3) y13 y14) (t : Fin cfg2.N) :
    (dat2 (F := Ideal) V c).flushed 4 t = ((cfg2.win 4).blk t).view.read (Elt Ideal) (val_main_v101 (F := Ideal) y0 y1 y2 y3 y4 y5 y6 y7 y8 y9 y10 y11 y12 y13 y14) := by
  show (cfg2.win 4).cut (grid2.coords t) ((dat2 V c).after 4 t) = _
  rw [after2_4, out_eq (iblk2 V c 0 t) (iblk2 V c 1 t) (iblk2 V c 2 t) (iblk2 V c 3 t)]
  have hN : cfg2.N = 20 := N_2
  have ht : t.val < 20 := hN ▸ t.isLt
  funext j
  obtain ⟨p, q, rfl⟩ : ∃ (p : Fin 5000) (q : Fin 128), j = ix2 p q := ⟨j 0, j 1, eq_ix2 j⟩
  have hp : p.val < 5000 := p.isLt
  exact (cut_apply (k2_pay1 (F := Ideal) (iblk2 V c 0 t) (iblk2 V c 1 t) (iblk2 V c 2 t) (iblk2 V c 3 t)) t p q).trans
    ((block_row y0 y1 y2 y3 y4 y5 y6 y7 y8 y9 y10 y11 y12 y13 y14 V c he t p q ⟨5000 * t.val + p.val, by omega⟩ rfl).trans
      (read_blk (val_main_v101 (F := Ideal) y0 y1 y2 y3 y4 y5 y6 y7 y8 y9 y10 y11 y12 y13 y14) t p q ⟨5000 * t.val + p.val, by omega⟩ rfl).symm)

/-- An index of the array is in point `t`'s block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v55).slice (win2_4.rect t)).set ↔ _
  rw [View.set_slice_whole, Rect.mem_set_unit]
  exact Iff.rfl

/-- Every row of the array is in the block of the point `row / 5000`. -/
theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

end Region2

/-- After region 2 its output array is the reference's result. -/
theorem final2 (V : KV) (c : Dev nD) (y0 : (⟨Cert.ReferenceIdeal.S100000x128, .f32⟩ : BufTy).Contents (Elt Ideal)) (y1 : (⟨Cert.ReferenceIdeal.S100000, .i32⟩ : BufTy).Contents (Elt Ideal)) (y2 : (⟨Cert.ReferenceIdeal.S1600000, .i32⟩ : BufTy).Contents (Elt Ideal)) (y3 : (⟨Cert.ReferenceIdeal.S1600000, .i32⟩ : BufTy).Contents (Elt Ideal)) (y4 : (⟨Cert.ReferenceIdeal.S24x128, .f32⟩ : BufTy).Contents (Elt Ideal)) (y5 : (⟨Cert.ReferenceIdeal.S256x512, .f32⟩ : BufTy).Contents (Elt Ideal)) (y6 : (⟨Cert.ReferenceIdeal.S512, .f32⟩ : BufTy).Contents (Elt Ideal)) (y7 : (⟨Cert.ReferenceIdeal.S512, .f32⟩ : BufTy).Contents (Elt Ideal)) (y8 : (⟨Cert.ReferenceIdeal.S512, .f32⟩ : BufTy).Contents (Elt Ideal)) (y9 : (⟨Cert.ReferenceIdeal.S512x128, .f32⟩ : BufTy).Contents (Elt Ideal)) (y10 : (⟨Cert.ReferenceIdeal.S128, .f32⟩ : BufTy).Contents (Elt Ideal)) (y11 : (⟨Cert.ReferenceIdeal.S128x128, .f32⟩ : BufTy).Contents (Elt Ideal)) (y12 : (⟨Cert.ReferenceIdeal.S128, .f32⟩ : BufTy).Contents (Elt Ideal)) (y13 : (⟨Cert.ReferenceIdeal.S128x128, .f32⟩ : BufTy).Contents (Elt Ideal)) (y14 : (⟨Cert.ReferenceIdeal.S128, .f32⟩ : BufTy).Contents (Elt Ideal))
    (he : Entry2 V c (val_main_v93 (F := Ideal) y0 y1 y2 y3 y4 y5 y6 y7 y8 y9 y10 y11 y12) (val_main_v59 (F := Ideal) y3) y13 y14) :
    ((dat2 (F := Ideal) V c).arrAt 4 cfg2.N : S100000x128.Idx → EReal) = val_main_v101 (F := Ideal) y0 y1 y2 y3 y4 y5 y6 y7 y8 y9 y10 y11 y12 y13 y14 := by
  exact (dat2 (F := Ideal) V c).arrAt_eq_of_cover 4 (val_main_v101 (F := Ideal) y0 y1 y2 y3 y4 y5 y6 y7 y8 y9 y10 y11 y12 y13 y14)
    (fun t _ => Region2.flushed_eq y0 y1 y2 y3 y4 y5 y6 y7 y8 y9 y10 y11 y12 y13 y14 V c he t) Region2.cover

end Cert.Bridge

end
-- ==== Proof.Glue0.lean ====
import proofs.«403315_j6150393168617_2_alg».proof.Proof.Args
import Idealize.ShloMosaic.Lib.Pipeline.Value
import Idealize.ShloMosaic.Lib.ValueLayout
import Idealize.ShloMosaic.Lib.StableHlo.Run
import Idealize.ShloMosaic.Lib.KernelVsHost

/-! What region 0 finds when it is entered: the host operations before it reshape the labels and the degree scales into columns and the
    biases into rows, pad the label table with zero rows, and cut the first weight matrix into its two halves; the source-degree scale
    is computed by the same operations as the reference's. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

/-! The auxiliary facts of this module are kept under their own namespace. -/
namespace Glue0

/-- A vector cast to a column reads, at `(i, u)`, the vector at `i`, whatever the unit coordinate `u`: the two
    row-major positions are `i` and `i * 1 + u` with `u = 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The arrays at region 0's entry, whole, at any float family

Each array a host operation wrote is that operation's function of its operands, and an operand that is an argument of the
program is never written, so it still holds the launch memory's contents: the fold over the seven stretches of host
operations is read at the array's buffer, each operation's result at its own buffer being its function's value and at any
other buffer what was there. -/

section Whole
variable {F : FTy → Type} [FloatOps F]
variable (m : (ℓ : Loc nD τ sig) → Buf (Elt F) ℓ) (ρ : Dev nD → PrngReg) (c : Dev nD)

/-- One step of the walk back to the launch memory: the left side is a stretch's fold read at a buffer none of the
    stretch's operations writes. -/
local macro "keep_step" : tactic => `(tactic| (
  refine (StableHlo.after_of_forall_not_mem _ _ (List.forall_iff_forall_mem.mp ?_)).trans ?_
  · simp only [hostOps0, hostOps0_1, hostOps0_2, hostOps0_3, hostOps0_4, hostOps0_5, hostOps0_6, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide)))

/-- The node features are never written. -/
theorem W7_arg0 : W7 m ρ c (Proc.devRef .tc main_arg0) = m ((c : Thread nD τ).loc main_arg0) := by
  iterate 7 keep_step
  rfl

/-- The second weight matrix is never written. -/
theorem W7_arg9 : W7 m ρ c (Proc.devRef .tc main_arg9) = m ((c : Thread nD τ).loc main_arg9) := by
  iterate 7 keep_step
  rfl

/-- The labels' column is the labels reshaped. -/
theorem W7_v21 : W7 m ρ c (Proc.devRef .tc main_v21)
    = fun i => shapeCast S100000x1 (m ((c : Thread nD τ).loc main_arg1)) shapeCasts_S100000_S100000x1 i := by
  show StableHlo.after hostOps0_6 _ (Proc.devRef .tc main_v21) = _
  after_results
  rfl

/-- The first bias's row is the first bias reshaped. -/
theorem W7_v25 : W7 m ρ c (Proc.devRef .tc main_v25)
    = fun i => shapeCast S1x512 (m ((c : Thread nD τ).loc main_arg6)) shapeCasts_S512_S1x512 i := by
  show StableHlo.after hostOps0_6 _ (Proc.devRef .tc main_v25) = _
  after_results
  rfl

/-- The gain's row is the gain reshaped. -/
theorem W7_v26 : W7 m ρ c (Proc.devRef .tc main_v26)
    = fun i => shapeCast S1x512 (m ((c : Thread nD τ).loc main_arg7)) shapeCasts_S512_S1x512 i := by
  show StableHlo.after hostOps0_6 _ (Proc.devRef .tc main_v26) = _
  after_results
  rfl

/-- The offset's row is the offset reshaped. -/
theorem W7_v27 : W7 m ρ c (Proc.devRef .tc main_v27)
    = fun i => shapeCast S1x512 (m ((c : Thread nD τ).loc main_arg8)) shapeCasts_S512_S1x512 i := by
  show StableHlo.after hostOps0_6 _ (Proc.devRef .tc main_v27) = _
  after_results
  rfl

/-- The second bias's row is the second bias reshaped. -/
theorem W7_v28 : W7 m ρ c (Proc.devRef .tc main_v28)
    = fun i => shapeCast S1x128 (m ((c : Thread nD τ).loc main_arg10)) shapeCasts_S128_S1x128 i := by
  show StableHlo.after hostOps0_6 _ (Proc.devRef .tc main_v28) = _
  after_results
  rfl

/-- The upper half of the first weight matrix is its rows from 0. -/
theorem W7_v23 : W7 m ρ c (Proc.devRef .tc main_v23)
    = fun j => extractStridedSlice S128x512 ![0, 0] (m ((c : Thread nD τ).loc main_arg5)) slices_S256x512_S128x512_0_0 j := by
  show StableHlo.after hostOps0_6 _ (Proc.devRef .tc main_v23) = _
  after_results

/-- The lower half of the first weight matrix is its rows from 128. -/
theorem W7_v24 : W7 m ρ c (Proc.devRef .tc main_v24)
    = fun j => extractStridedSlice S128x512 ![128, 0] (m ((c : Thread nD τ).loc main_arg5)) slices_S256x512_S128x512_128_0 j := by
  show StableHlo.after hostOps0_6 _ (Proc.devRef .tc main_v24) = _
  after_results

/-- The padded label table is the label table with 104 rows of the integer 0, converted, below it. -/
theorem W7_v22 : W7 m ρ c (Proc.devRef .tc main_v22)
    = fun j => pad S128x128 ![0, 0] ![104, 0] ![0, 0] (m ((c : Thread nD τ).loc main_arg4))
        (sitofp (F := F) .f32 (constantI S_ 32 0#32)) pads_S24x128_S128x128_01040_000 h_S_ j := by
  show StableHlo.after hostOps0_6 _ (Proc.devRef .tc main_v22) = _
  after_results
  rfl

/-! ### The source-degree scale, stretch by stretch, from any contents `V` -/

/-- The first stretch leaves, where the out-degree is compared with 0, the reference's compare of the same edge sources:
    ones scattered at the edge sources into zeros, compared with zeros. -/
theorem deg_pos (V : Valuation τ sig (Elt F)) :
    StableHlo.after hostOps0 V (Proc.devRef .tc main_v8) = val_main_v49 (F := F) (V (Proc.devRef .tc main_arg2)) := by
  after_results_simp
  rfl

/-- The first stretch leaves the reciprocal square root of the out-degree's maximum with 1, as the reference computes it. -/
theorem deg_rsqrt (V : Valuation τ sig (Elt F)) :
    StableHlo.after hostOps0 V (Proc.devRef .tc main_v11) = val_main_v52 (F := F) (V (Proc.devRef .tc main_arg2)) := by
  after_results_simp
  rfl

/-- The first stretch ends with the constant 0 that the select takes where the out-degree is 0. -/
theorem deg_zero (V : Valuation τ sig (Elt F)) :
    StableHlo.after hostOps0 V (Proc.devRef .tc main_cst_4) = val_main_cst_10 (F := F) := by
  after_results_simp
  rfl

/-- The second stretch (the inlined select) from the three. -/
theorem scale_select (V : Valuation τ sig (Elt F)) :
    StableHlo.after hostOps0_1 V (Proc.devRef .tc main_v12)
      = select (V (Proc.devRef .tc main_v8)) (V (Proc.devRef .tc main_v11))
          (broadcastInDim S100000 ![] bcast_S_S100000 (V (Proc.devRef .tc main_cst_4))) := by
  after_results
  rfl

/-- The third stretch reshapes the scale into a column. -/
theorem scale_column (V : Valuation τ sig (Elt F)) :
    StableHlo.after hostOps0_2 V (Proc.devRef .tc main_v13)
      = fun i => shapeCast S100000x1 (V (Proc.devRef .tc main_v12)) shapeCasts_S100000_S100000x1 i := by
  after_results
  rfl

/-- The source-degree scale's column at region 0's entry is the reference's source-degree scale of the launch memory's
    edge sources, reshaped: the four later stretches do not write it, the third reshapes the select of the second, and the
    select's three operands are the first stretch's, which are the reference's own terms. -/
theorem W7_v13 : W7 m ρ c (Proc.devRef .tc main_v13)
    = fun i => shapeCast S100000x1 (val_main_v53 (F := F) (m ((c : Thread nD τ).loc main_arg2))) shapeCasts_S100000_S100000x1 i := by
  iterate 4 keep_step
  refine (scale_column (W2 m ρ c)).trans ?_
  have e8 : W1 m ρ c (Proc.devRef .tc main_v8) = val_main_v49 (F := F) (m ((c : Thread nD τ).loc main_arg2)) :=
    deg_pos (W0 m ρ c)
  have e11 : W1 m ρ c (Proc.devRef .tc main_v11) = val_main_v52 (F := F) (m ((c : Thread nD τ).loc main_arg2)) :=
    deg_rsqrt (W0 m ρ c)
  have e4 : W1 m ρ c (Proc.devRef .tc main_cst_4) = val_main_cst_10 (F := F) := deg_zero (W0 m ρ c)
  have e12 : W2 m ρ c (Proc.devRef .tc main_v12) = val_main_v53 (F := F) (m ((c : Thread nD τ).loc main_arg2)) := by
    refine (scale_select (W1 m ρ c)).trans ?_
    rw [e8, e11, e4]
    rfl
  rw [e12]

end Whole

/-! ## The fields, index by index, at the extended reals -/

section Fields
variable (m : KMem) (ρ : Dev nD → PrngReg) (c : Dev nD)

theorem entry0_x (i : Fin 100000) (j : Fin 128) :
    (V7 m ρ c main_arg0 : S100000x128.Idx → EReal) (ix2 i j) = a0 m c (ix2 i j) := by
  rw [show V7 m ρ c main_arg0 = a0 m c from W7_arg0 m ρ c]

theorem entry0_w2 (k : Fin 512) (q : Fin 128) :
    (V7 m ρ c main_arg9 : S512x128.Idx → EReal) (ix2 k q) = a9 m c (ix2 k q) := by
  rw [show V7 m ρ c main_arg9 = a9 m c from W7_arg9 m ρ c]

theorem entry0_lab (i : Fin 100000) :
    (V7 m ρ c main_v21 : S100000x1.Idx → BitVec 32) (ix2 i (0 : Fin 1)) = a1 m c (ix1 i) := by
  have e : (V7 m ρ c main_v21 : S100000x1.Idx → BitVec 32)
      = shapeCast S100000x1 (a1 m c) shapeCasts_S100000_S100000x1 := W7_v21 m ρ c
  rw [e]
  exact shapeCast_a_a1_apply _ _ i 0

theorem entry0_b1 (k : Fin 512) :
    (V7 m ρ c main_v25 : S1x512.Idx → EReal) (ix2 (0 : Fin 1) k) = a6 m c (ix1 k) := by
  have e : (V7 m ρ c main_v25 : S1x512.Idx → EReal) = shapeCast S1x512 (a6 m c) shapeCasts_S512_S1x512 := W7_v25 m ρ c
  rw [e]
  exact shapeCast_a_1a_apply _ _ 0 k

theorem entry0_g1 (k : Fin 512) :
    (V7 m ρ c main_v26 : S1x512.Idx → EReal) (ix2 (0 : Fin 1) k) = a7 m c (ix1 k) := by
  have e : (V7 m ρ c main_v26 : S1x512.Idx → EReal) = shapeCast S1x512 (a7 m c) shapeCasts_S512_S1x512 := W7_v26 m ρ c
  rw [e]
  exact shapeCast_a_1a_apply _ _ 0 k

theorem entry0_be1 (k : Fin 512) :
    (V7 m ρ c main_v27 : S1x512.Idx → EReal) (ix2 (0 : Fin 1) k) = a8 m c (ix1 k) := by
  have e : (V7 m ρ c main_v27 : S1x512.Idx → EReal) = shapeCast S1x512 (a8 m c) shapeCasts_S512_S1x512 := W7_v27 m ρ c
  rw [e]
  exact shapeCast_a_1a_apply _ _ 0 k

theorem entry0_b2 (q : Fin 128) :
    (V7 m ρ c main_v28 : S1x128.Idx → EReal) (ix2 (0 : Fin 1) q) = a10 m c (ix1 q) := by
  have e : (V7 m ρ c main_v28 : S1x128.Idx → EReal) = shapeCast S1x128 (a10 m c) shapeCasts_S128_S1x128 := W7_v28 m ρ c
  rw [e]
  exact shapeCast_a_1a_apply _ _ 0 q

theorem entry0_w1a (j : Fin 128) (k : Fin 512) :
    (V7 m ρ c main_v23 : S128x512.Idx → EReal) (ix2 j k) = a5 m c (ix2 (⟨j.val, by omega⟩ : Fin 256) k) := by
  have e : (V7 m ρ c main_v23 : S128x512.Idx → EReal)
      = extractStridedSlice S128x512 ![0, 0] (a5 m c) slices_S256x512_S128x512_0_0 := W7_v23 m ρ c
  rw [e]
  exact slice2_axis0_apply 0 _ _ j k _ (Nat.zero_add _).symm

theorem entry0_w1b (j : Fin 128) (k : Fin 512) :
    (V7 m ρ c main_v24 : S128x512.Idx → EReal) (ix2 j k) = a5 m c (ix2 (⟨128 + j.val, by omega⟩ : Fin 256) k) := by
  have e : (V7 m ρ c main_v24 : S128x512.Idx → EReal)
      = extractStridedSlice S128x512 ![128, 0] (a5 m c) slices_S256x512_S128x512_128_0 := W7_v24 m ρ c
  rw [e]
  exact slice2_axis0_apply 128 _ _ j k _ rfl

/-- A row of the padded label table is the label table's row where there is one, and the pad value below it: the
    integer 0 converted, which is the extended real 0. -/
theorem entry0_emb (r j : Fin 128) :
    (V7 m ρ c main_v22 : S128x128.Idx → EReal) (ix2 r j)
      = if h : r.val < 24 then a4 m c (ix2 (⟨r.val, h⟩ : Fin 24) j) else 0 := by
  have e : (V7 m ρ c main_v22 : S128x128.Idx → EReal)
      = pad S128x128 ![0, 0] ![104, 0] ![0, 0] (a4 m c) (sitofp (F := Ideal) .f32 (constantI S_ 32 0#32))
          pads_S24x128_S128x128_01040_000 h_S_ := W7_v22 m ρ c
  rw [e]
  by_cases h : r.val < 24
  · rw [dif_pos h]
    exact pad_apply_of_inside _ _ _ _ _ _ _ (ix2 r j) (ix2 (⟨r.val, h⟩ : Fin 24) j) (fun a => match a with
      | ⟨0, _⟩ => by show r.val = 0 + r.val * (0 + 1); omega
      | ⟨1, _⟩ => by show j.val = 0 + j.val * (0 + 1); omega)
  · rw [dif_neg h]
    refine (pad_apply_of_not_inside _ _ _ _ _ _ _ (ix2 r j) (0 : Fin 2) ?_).trans ?_
    · show ¬((0 : ℕ) ≤ r.val ∧ (r.val - 0) % (0 + 1) = 0 ∧ (r.val - 0) / (0 + 1) < 24)
      omega
    · show (((0#32 : BitVec 32).toInt : ℝ) : EReal) = 0
      simp

theorem entry0_ns (i : Fin 100000) :
    (V7 m ρ c main_v13 : S100000x1.Idx → EReal) (ix2 i (0 : Fin 1)) = val_main_v53 (F := Ideal) (a2 m c) (ix1 i) := by
  have e : (V7 m ρ c main_v13 : S100000x1.Idx → EReal)
      = shapeCast S100000x1 (val_main_v53 (F := Ideal) (a2 m c)) shapeCasts_S100000_S100000x1 := W7_v13 m ρ c
  rw [e]
  exact shapeCast_a_a1_apply _ _ i 0

end Fields

end Glue0

variable (m : KMem) (ρ : Dev nD → PrngReg) (c : Dev nD)

/-- Region 0's input arrays at its entry, in terms of the launch memory's arguments. -/
theorem entry0 : Entry0 (V7 m ρ) c (a0 m c) (a1 m c) (a2 m c) (a4 m c) (a5 m c) (a6 m c) (a7 m c) (a8 m c) (a9 m c) (a10 m c) :=
  { x := Glue0.entry0_x m ρ c
    lab := Glue0.entry0_lab m ρ c
    ns := Glue0.entry0_ns m ρ c
    emb := Glue0.entry0_emb m ρ c
    w1a := Glue0.entry0_w1a m ρ c
    w1b := Glue0.entry0_w1b m ρ c
    b1 := Glue0.entry0_b1 m ρ c
    g1 := Glue0.entry0_g1 m ρ c
    be1 := Glue0.entry0_be1 m ρ c
    w2 := Glue0.entry0_w2 m ρ c
    b2 := Glue0.entry0_b2 m ρ c }

end Cert.Bridge

end
-- ==== Proof.GlueNd.lean ====
import proofs.«403315_j6150393168617_2_alg».proof.Proof.Args
import Idealize.ShloMosaic.Lib.Pipeline.Value
import Idealize.ShloMosaic.Lib.StableHlo.Run

/-! The destination-degree scale as the kernel program's host operations leave it before region 0: a column whose entry i is
    1/√(in-degree of i) where the in-degree is positive and 0 elsewhere, computed by the same operations as the reference's. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

namespace GlueNd

/-- A vector reshaped to a column, read at a row: the vector at that row. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section AnyFormat
variable {F : FTy → Type} [FloatOps F]
open Idealize.ShloMosaic.StableHlo

/-! ### One stretch of host operations at a time, from any buffer contents -/

/-- The first stretch leaves the in-degree count: ones added at the edges' destinations into zeros. -/
theorem stretch0_v6 (Vv : Valuation τ sig (Elt F)) :
    StableHlo.after (hostOps0 (F := F)) Vv (Proc.devRef .tc main_v6) = val_main_v47 (F := F) (Vv (Proc.devRef .tc main_arg3)) := by
  after_results
  rfl

/-- The second stretch does not write the count. -/
theorem stretch1_v6 (Vv : Valuation τ sig (Elt F)) :
    StableHlo.after (hostOps0_1 (F := F)) Vv (Proc.devRef .tc main_v6) = Vv (Proc.devRef .tc main_v6) := by
  after_results

/-- The third stretch compares the count with zero … -/
theorem stretch2_v15 (Vv : Valuation τ sig (Elt F)) (x3 : (⟨Cert.ReferenceIdeal.S1600000, .i32⟩ : BufTy).Contents (Elt F))
    (h6 : Vv (Proc.devRef .tc main_v6) = val_main_v47 (F := F) x3) :
    StableHlo.after (hostOps0_2 (F := F)) Vv (Proc.devRef .tc main_v15) = val_main_v55 (F := F) x3 := by
  after_results
  rw [h6]
  rfl

/-- … takes the reciprocal square root of the count raised to at least one … -/
theorem stretch2_v18 (Vv : Valuation τ sig (Elt F)) (x3 : (⟨Cert.ReferenceIdeal.S1600000, .i32⟩ : BufTy).Contents (Elt F))
    (h6 : Vv (Proc.devRef .tc main_v6) = val_main_v47 (F := F) x3) :
    StableHlo.after (hostOps0_2 (F := F)) Vv (Proc.devRef .tc main_v18) = val_main_v58 (F := F) x3 := by
  after_results
  rw [h6]
  rfl

/-- … and makes the zero the selection falls back to. -/
theorem stretch2_cst7 (Vv : Valuation τ sig (Elt F)) :
    StableHlo.after (hostOps0_2 (F := F)) Vv (Proc.devRef .tc main_cst_7) = val_main_cst_13 (F := F) := by
  after_results
  rfl

/-- The fourth stretch selects the reciprocal square root where the count is positive and zero elsewhere. -/
theorem stretch3_v19 (Vv : Valuation τ sig (Elt F)) (x3 : (⟨Cert.ReferenceIdeal.S1600000, .i32⟩ : BufTy).Contents (Elt F))
    (h15 : Vv (Proc.devRef .tc main_v15) = val_main_v55 (F := F) x3)
    (h18 : Vv (Proc.devRef .tc main_v18) = val_main_v58 (F := F) x3)
    (h7 : Vv (Proc.devRef .tc main_cst_7) = val_main_cst_13 (F := F)) :
    StableHlo.after (hostOps0_3 (F := F)) Vv (Proc.devRef .tc main_v19) = val_main_v59 (F := F) x3 := by
  after_results
  simp only [TRef.ofBuf, TRef.toBuf, cast_eq]
  rw [h15, h18, h7]
  rfl

/-- The fifth stretch reshapes the scale to a column. -/
theorem stretch4_v20 (Vv : Valuation τ sig (Elt F)) (y : (⟨Cert.ReferenceIdeal.S100000, .f32⟩ : BufTy).Contents (Elt F))
    (h19 : Vv (Proc.devRef .tc main_v19) = y) :
    StableHlo.after (hostOps0_4 (F := F)) Vv (Proc.devRef .tc main_v20)
      = fun i => shapeCast S100000x1 y shapeCasts_S100000_S100000x1 i := by
  after_results
  rw [h19]
  rfl

/-- The sixth and the seventh stretch do not write the column. -/
theorem stretch5_v20 (Vv : Valuation τ sig (Elt F)) :
    StableHlo.after (hostOps0_5 (F := F)) Vv (Proc.devRef .tc main_v20) = Vv (Proc.devRef .tc main_v20) := by
  after_results
theorem stretch6_v20 (Vv : Valuation τ sig (Elt F)) :
    StableHlo.after (hostOps0_6 (F := F)) Vv (Proc.devRef .tc main_v20) = Vv (Proc.devRef .tc main_v20) := by
  after_results

/-! ### The stretches in order, from the launch memory -/

variable (m : (ℓ : Loc nD τ sig) → Buf (Elt F) ℓ) (ρ : Dev nD → PrngReg) (c : Dev nD)

theorem count_after1 : W1 m ρ c (Proc.devRef .tc main_v6) = val_main_v47 (F := F) (m ((c.tc : Thread nD τ).loc main_arg3)) :=
  stretch0_v6 (W0 m ρ c)
theorem count_after2 : W2 m ρ c (Proc.devRef .tc main_v6) = val_main_v47 (F := F) (m ((c.tc : Thread nD τ).loc main_arg3)) :=
  (stretch1_v6 (W1 m ρ c)).trans (count_after1 m ρ c)
theorem scale_after4 : W4 m ρ c (Proc.devRef .tc main_v19) = val_main_v59 (F := F) (m ((c.tc : Thread nD τ).loc main_arg3)) :=
  stretch3_v19 (W3 m ρ c) _ (stretch2_v15 (W2 m ρ c) _ (count_after2 m ρ c)) (stretch2_v18 (W2 m ρ c) _ (count_after2 m ρ c))
    (stretch2_cst7 (W2 m ρ c))
/-- At region 0's entry the column holds the reference's destination-degree scale, reshaped. -/
theorem column_at_entry : W7 m ρ c (Proc.devRef .tc main_v20)
    = fun i => shapeCast S100000x1 (val_main_v59 (F := F) (m ((c.tc : Thread nD τ).loc main_arg3))) shapeCasts_S100000_S100000x1 i :=
  (stretch6_v20 (W6 m ρ c)).trans ((stretch5_v20 (W5 m ρ c)).trans (stretch4_v20 (W4 m ρ c) _ (scale_after4 m ρ c)))

end AnyFormat

end GlueNd

variable (m : KMem) (ρ : Dev nD → PrngReg) (c : Dev nD)

/-- The destination-degree column at region 0's entry is the reference's destination-degree scale. -/
theorem nd_col (i : Fin 100000) :
    (V7 m ρ c main_v20 : S100000x1.Idx → EReal) (ix2 i (0 : Fin 1)) = ndR m c (ix1 i) := by
  refine (congrFun (GlueNd.column_at_entry (F := Ideal) m ρ c) (ix2 i (0 : Fin 1))).trans ?_
  exact GlueNd.shapeCast_col_apply _ _ i 0

end Cert.Bridge

end
-- ==== Proof.Glue1.lean ====
import proofs.«403315_j6150393168617_2_alg».proof.Proof.Args
import proofs.«403315_j6150393168617_2_alg».proof.Proof.Glue0
import proofs.«403315_j6150393168617_2_alg».proof.Proof.GlueNd
import Idealize.ShloMosaic.Lib.Pipeline.Value
import Idealize.ShloMosaic.Lib.StableHlo.Run
import Idealize.ShloMosaic.Lib.ValueLayout

/-! What region 1 finds when it is entered: between regions 0 and 1 the host gathers region 0's output rows at the edge sources and
    adds them up at the edge destinations, the same two operations the reference applies to the same array; the degree scales are
    still the columns computed before region 0, and the layer's bias is reshaped into a row. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

variable (m : KMem) (ρ : Dev nD → PrngReg) (c : Dev nD)

/-! ### A change of float format -/

/-- Widening a float format changes no extended real. -/
theorem widen_eq1 {s : Shape} (x : FVec Ideal s .bf16) (h : FTy.bits .bf16 < FTy.bits .f32) :
    (extf .f32 x h : s.Idx → EReal) = x := rfl

/-! ### Buffers that the host stretches and the regions leave as they were -/

/-- A stretch of host operations leaves a buffer that none of them writes as it was. -/
local macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The edge sources at region 0's exit are the launch memory's. -/
theorem exit0_src : W8 m ρ c (Proc.devRef .tc main_arg2) = m ((c : Thread nD τ).loc main_arg2) :=
  calc W8 m ρ c (Proc.devRef .tc main_arg2)
    _ = W9 m ρ c (Proc.devRef .tc main_arg2) := Eq.symm (by stretch_keeps hostOps1)
    _ = W10 m ρ c (Proc.devRef .tc main_arg2) := (W10_of_ne m ρ c main_arg2 (by decide)).symm
    _ = W11 m ρ c (Proc.devRef .tc main_arg2) := Eq.symm (by stretch_keeps hostOps2)
    _ = W12 m ρ c (Proc.devRef .tc main_arg2) := (W12_of_ne m ρ c main_arg2 (by decide)).symm
    _ = m ((c : Thread nD τ).loc main_arg2) := W12_main_arg2 m ρ c

/-- The edge destinations at region 0's exit are the launch memory's. -/
theorem exit0_dst : W8 m ρ c (Proc.devRef .tc main_arg3) = m ((c : Thread nD τ).loc main_arg3) :=
  calc W8 m ρ c (Proc.devRef .tc main_arg3)
    _ = W9 m ρ c (Proc.devRef .tc main_arg3) := Eq.symm (by stretch_keeps hostOps1)
    _ = W10 m ρ c (Proc.devRef .tc main_arg3) := (W10_of_ne m ρ c main_arg3 (by decide)).symm
    _ = W11 m ρ c (Proc.devRef .tc main_arg3) := Eq.symm (by stretch_keeps hostOps2)
    _ = W12 m ρ c (Proc.devRef .tc main_arg3) := (W12_of_ne m ρ c main_arg3 (by decide)).symm
    _ = m ((c : Thread nD τ).loc main_arg3) := W12_main_arg3 m ρ c

/-- Layer 0's bias at region 0's exit is the launch memory's. -/
theorem exit0_bias : W8 m ρ c (Proc.devRef .tc main_arg12) = m ((c : Thread nD τ).loc main_arg12) :=
  calc W8 m ρ c (Proc.devRef .tc main_arg12)
    _ = W9 m ρ c (Proc.devRef .tc main_arg12) := Eq.symm (by stretch_keeps hostOps1)
    _ = W10 m ρ c (Proc.devRef .tc main_arg12) := (W10_of_ne m ρ c main_arg12 (by decide)).symm
    _ = W11 m ρ c (Proc.devRef .tc main_arg12) := Eq.symm (by stretch_keeps hostOps2)
    _ = W12 m ρ c (Proc.devRef .tc main_arg12) := (W12_of_ne m ρ c main_arg12 (by decide)).symm
    _ = m ((c : Thread nD τ).loc main_arg12) := W12_main_arg12 m ρ c

/-- Layer 0's weight matrix at region 1's entry is the launch memory's: region 1 only reads it. -/
theorem entry1_weight : W9 m ρ c (Proc.devRef .tc main_arg11) = m ((c : Thread nD τ).loc main_arg11) :=
  calc W9 m ρ c (Proc.devRef .tc main_arg11)
    _ = W10 m ρ c (Proc.devRef .tc main_arg11) :=
        ((W10_arr m ρ c 3).trans (((dat1 (V9 m ρ) c).arrAt_in 3 rfl _).trans (A_eq1 (V9 m ρ) c 3))).symm
    _ = W11 m ρ c (Proc.devRef .tc main_arg11) := Eq.symm (by stretch_keeps hostOps2)
    _ = W12 m ρ c (Proc.devRef .tc main_arg11) := (W12_of_ne m ρ c main_arg11 (by decide)).symm
    _ = m ((c : Thread nD τ).loc main_arg11) := W12_main_arg11 m ρ c

/-- The destination-degree column at region 1's entry is the one region 0 was entered with: region 0 does not touch it. -/
theorem entry1_ndcol : W9 m ρ c (Proc.devRef .tc main_v20) = W7 m ρ c (Proc.devRef .tc main_v20) :=
  calc W9 m ρ c (Proc.devRef .tc main_v20)
    _ = W8 m ρ c (Proc.devRef .tc main_v20) := by stretch_keeps hostOps1
    _ = W7 m ρ c (Proc.devRef .tc main_v20) := W8_of_ne m ρ c main_v20 (by decide)

/-- The source-degree column at region 1's entry is the one region 0 was entered with: region 0 only reads it. -/
theorem entry1_nscol : W9 m ρ c (Proc.devRef .tc main_v13) = W7 m ρ c (Proc.devRef .tc main_v13) :=
  calc W9 m ρ c (Proc.devRef .tc main_v13)
    _ = W8 m ρ c (Proc.devRef .tc main_v13) := by stretch_keeps hostOps1
    _ = W7 m ρ c (Proc.devRef .tc main_v13) :=
        (W8_arr m ρ c 2).trans (((dat0 (V7 m ρ) c).arrAt_in 2 rfl _).trans (A_eq0 (V7 m ρ) c 2))

/-! ### The aggregated messages -/

/-- The two printed programs name the same gather and the same scatter-add. -/
theorem gather_dims_eq1 : Cert.KernelIdeal.gather_S100000x128_S1600000x1_S1600000x128_1_0_n_n_0_1_1128
    = Cert.ReferenceIdeal.gather_S100000x128_S1600000x1_S1600000x128_1_0_n_n_0_1_1128 := rfl
theorem scatter_dims_eq1 : Cert.KernelIdeal.scatter_S100000x128_S1600000x1_S1600000x128_1_0_0_1
    = Cert.ReferenceIdeal.scatter_S100000x128_S1600000x1_S1600000x128_1_0_0_1 := rfl

/-- Between regions 0 and 1 the host wraps negative edge sources around, gathers region 0's output rows at them and adds the gathered
    rows up at the edge destinations, starting from zero: the reference's aggregation of the same array over the same edges. -/
theorem entry1_agg (h0 : (W8 m ρ c (Proc.devRef .tc main_v29) : S100000x128.Idx → EReal) = hs0R m c) :
    (W9 m ρ c (Proc.devRef .tc main_v40) : S100000x128.Idx → EReal) = agg0R m c := by
  show StableHlo.after hostOps1 (W8 m ρ c) (Proc.devRef .tc main_v40) = _
  after_results_simp
  rw [exit0_src m ρ c, exit0_dst m ρ c, h0, widen_eq1, gather_dims_eq1, scatter_dims_eq1]
  unfold agg0R hs0R val_main_v72 val_main_v71 val_main_v70 val_main_cst_16 val_main_v69 val_main_v68 val_main_v67 val_main_v66
    val_main_v65 val_main_c_15 val_main_v64 val_main_v63 val_main_c_14
  rfl

/-! ### The bias row -/

/-- Layer 0's bias, reshaped by the host into a row, reads in column `q` the bias's entry `q`. -/
theorem entry1_bias (q : Fin 128) :
    (W9 m ρ c (Proc.devRef .tc main_v41) : S1x128.Idx → EReal) (ix2 (0 : Fin 1) q) = a12 m c (ix1 q) := by
  have e : (W9 m ρ c (Proc.devRef .tc main_v41) : S1x128.Idx → EReal)
      = shapeCast S1x128 (W8 m ρ c (Proc.devRef .tc main_arg12) : S128.Idx → EReal) shapeCasts_S128_S1x128 := by
    show StableHlo.after hostOps1 (W8 m ρ c) (Proc.devRef .tc main_v41) = _
    after_results_simp
    rfl
  rw [e, exit0_bias m ρ c]
  exact shapeCast_a_1a_apply _ _ 0 q

/-- Region 1's input arrays at its entry, given what region 0 left in its output array. -/
theorem entry1 (h0 : (W8 m ρ c (Proc.devRef .tc main_v29) : S100000x128.Idx → EReal) = hs0R m c) :
    Entry1 (V9 m ρ) c (agg0R m c) (ndR m c) (nsR m c) (a11 m c) (a12 m c) := by
  refine ⟨fun i j => ?_, fun i => ?_, fun i => ?_, fun j q => ?_, fun q => ?_⟩
  · exact congrFun (entry1_agg m ρ c h0) (ix2 i j)
  · show (W9 m ρ c (Proc.devRef .tc main_v20) : S100000x1.Idx → EReal) (ix2 i (0 : Fin 1)) = _
    rw [entry1_ndcol m ρ c]
    exact nd_col m ρ c i
  · show (W9 m ρ c (Proc.devRef .tc main_v13) : S100000x1.Idx → EReal) (ix2 i (0 : Fin 1)) = _
    rw [entry1_nscol m ρ c]
    exact (entry0 m ρ c).ns i
  · show (W9 m ρ c (Proc.devRef .tc main_arg11) : S128x128.Idx → EReal) (ix2 j q) = _
    rw [entry1_weight m ρ c]
  · exact entry1_bias m ρ c q

end Cert.Bridge

end
-- ==== Proof.Glue2.lean ====
import proofs.«403315_j6150393168617_2_alg».proof.Proof.Args
import proofs.«403315_j6150393168617_2_alg».proof.Proof.GlueNd
import Idealize.ShloMosaic.Lib.Pipeline.Value
import Idealize.ShloMosaic.Lib.StableHlo.Run
import Idealize.ShloMosaic.Lib.ValueLayout

/-! What region 2 finds when it is entered: between regions 1 and 2 the host gathers region 1's output rows at the edge sources and
    adds them up at the edge destinations, as the reference does; the destination-degree scale is still the column computed before
    region 0, and the layer's bias is reshaped into a row. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

variable (m : KMem) (ρ : Dev nD → PrngReg) (c : Dev nD)

/-! ### A change of float format -/

/-- Widening a float format changes no extended real. -/
theorem widen_eq2 {s : Shape} (x : FVec Ideal s .bf16) (h : FTy.bits .bf16 < FTy.bits .f32) :
    (extf .f32 x h : s.Idx → EReal) = x := rfl

/-! ### Buffers that the host stretches and the regions leave as they were -/

/-- A stretch of host operations leaves a buffer that none of them writes as it was. -/
local macro "stretch_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The edge sources at region 1's exit are the launch memory's. -/
theorem exit1_src : W10 m ρ c (Proc.devRef .tc main_arg2) = m ((c : Thread nD τ).loc main_arg2) :=
  calc W10 m ρ c (Proc.devRef .tc main_arg2)
    _ = W11 m ρ c (Proc.devRef .tc main_arg2) := Eq.symm (by stretch_keeps hostOps2)
    _ = W12 m ρ c (Proc.devRef .tc main_arg2) := (W12_of_ne m ρ c main_arg2 (by decide)).symm
    _ = m ((c : Thread nD τ).loc main_arg2) := W12_main_arg2 m ρ c

/-- The edge destinations at region 1's exit are the launch memory's. -/
theorem exit1_dst : W10 m ρ c (Proc.devRef .tc main_arg3) = m ((c : Thread nD τ).loc main_arg3) :=
  calc W10 m ρ c (Proc.devRef .tc main_arg3)
    _ = W11 m ρ c (Proc.devRef .tc main_arg3) := Eq.symm (by stretch_keeps hostOps2)
    _ = W12 m ρ c (Proc.devRef .tc main_arg3) := (W12_of_ne m ρ c main_arg3 (by decide)).symm
    _ = m ((c : Thread nD τ).loc main_arg3) := W12_main_arg3 m ρ c

/-- Layer 1's bias at region 1's exit is the launch memory's. -/
theorem exit1_bias : W10 m ρ c (Proc.devRef .tc main_arg14) = m ((c : Thread nD τ).loc main_arg14) :=
  calc W10 m ρ c (Proc.devRef .tc main_arg14)
    _ = W11 m ρ c (Proc.devRef .tc main_arg14) := Eq.symm (by stretch_keeps hostOps2)
    _ = W12 m ρ c (Proc.devRef .tc main_arg14) := (W12_of_ne m ρ c main_arg14 (by decide)).symm
    _ = m ((c : Thread nD τ).loc main_arg14) := W12_main_arg14 m ρ c

/-- Layer 1's weight matrix at region 2's entry is the launch memory's: region 2 only reads it. -/
theorem entry2_weight : W11 m ρ c (Proc.devRef .tc main_arg13) = m ((c : Thread nD τ).loc main_arg13) :=
  calc W11 m ρ c (Proc.devRef .tc main_arg13)
    _ = W12 m ρ c (Proc.devRef .tc main_arg13) :=
        ((W12_arr m ρ c 2).trans (((dat2 (V11 m ρ) c).arrAt_in 2 rfl _).trans (A_eq2 (V11 m ρ) c 2))).symm
    _ = m ((c : Thread nD τ).loc main_arg13) := W12_main_arg13 m ρ c

/-- The destination-degree column at region 2's entry is the one region 0 was entered with: the host stretches between the
    regions do not write it, region 0 does not touch it and region 1 only reads it. -/
theorem entry2_ndcol : W11 m ρ c (Proc.devRef .tc main_v20) = W7 m ρ c (Proc.devRef .tc main_v20) :=
  calc W11 m ρ c (Proc.devRef .tc main_v20)
    _ = W10 m ρ c (Proc.devRef .tc main_v20) := by stretch_keeps hostOps2
    _ = W9 m ρ c (Proc.devRef .tc main_v20) :=
        (W10_arr m ρ c 1).trans (((dat1 (V9 m ρ) c).arrAt_in 1 rfl _).trans (A_eq1 (V9 m ρ) c 1))
    _ = W8 m ρ c (Proc.devRef .tc main_v20) := by stretch_keeps hostOps1
    _ = W7 m ρ c (Proc.devRef .tc main_v20) := W8_of_ne m ρ c main_v20 (by decide)

/-! ### The aggregated messages -/

/-- The two printed programs name the same gather and the same scatter-add. -/
theorem gather_dims_eq2 : Cert.KernelIdeal.gather_S100000x128_S1600000x1_S1600000x128_1_0_n_n_0_1_1128
    = Cert.ReferenceIdeal.gather_S100000x128_S1600000x1_S1600000x128_1_0_n_n_0_1_1128 := rfl
theorem scatter_dims_eq2 : Cert.KernelIdeal.scatter_S100000x128_S1600000x1_S1600000x128_1_0_0_1
    = Cert.ReferenceIdeal.scatter_S100000x128_S1600000x1_S1600000x128_1_0_0_1 := rfl

/-- Between regions 1 and 2 the host wraps negative edge sources around, gathers region 1's output rows at them and adds the gathered
    rows up at the edge destinations, starting from zero: the reference's aggregation of the same array over the same edges. -/
theorem entry2_agg (h1 : (W10 m ρ c (Proc.devRef .tc main_v42) : S100000x128.Idx → EReal) = hs1R m c) :
    (W11 m ρ c (Proc.devRef .tc main_v53) : S100000x128.Idx → EReal) = agg1R m c := by
  show StableHlo.after hostOps2 (W10 m ρ c) (Proc.devRef .tc main_v53) = _
  after_results_simp
  rw [exit1_src m ρ c, exit1_dst m ρ c, h1, widen_eq2, gather_dims_eq2, scatter_dims_eq2]
  unfold agg1R hs1R val_main_v93 val_main_v92 val_main_v91 val_main_cst_19 val_main_v90 val_main_v89 val_main_v88 val_main_v87
    val_main_v86 val_main_c_18 val_main_v85 val_main_v84 val_main_c_17
  rfl

/-! ### The bias row -/

/-- Layer 1's bias, reshaped by the host into a row, reads in column `q` the bias's entry `q`. -/
theorem entry2_bias (q : Fin 128) :
    (W11 m ρ c (Proc.devRef .tc main_v54) : S1x128.Idx → EReal) (ix2 (0 : Fin 1) q) = a14 m c (ix1 q) := by
  have e : (W11 m ρ c (Proc.devRef .tc main_v54) : S1x128.Idx → EReal)
      = shapeCast S1x128 (W10 m ρ c (Proc.devRef .tc main_arg14) : S128.Idx → EReal) shapeCasts_S128_S1x128 := by
    show StableHlo.after hostOps2 (W10 m ρ c) (Proc.devRef .tc main_v54) = _
    after_results_simp
    rfl
  rw [e, exit1_bias m ρ c]
  exact shapeCast_a_1a_apply _ _ 0 q

/-- Region 2's input arrays at its entry, given what region 1 left in its output array. -/
theorem entry2 (h1 : (W10 m ρ c (Proc.devRef .tc main_v42) : S100000x128.Idx → EReal) = hs1R m c) :
    Entry2 (V11 m ρ) c (agg1R m c) (ndR m c) (a13 m c) (a14 m c) := by
  refine ⟨fun i j => ?_, fun i => ?_, fun j q => ?_, fun q => ?_⟩
  · exact congrFun (entry2_agg m ρ c h1) (ix2 i j)
  · show (W11 m ρ c (Proc.devRef .tc main_v20) : S100000x1.Idx → EReal) (ix2 i (0 : Fin 1)) = _
    rw [entry2_ndcol m ρ c]
    exact nd_col m ρ c i
  · show (W11 m ρ c (Proc.devRef .tc main_arg13) : S128x128.Idx → EReal) (ix2 j q) = _
    rw [entry2_weight m ρ c]
  · exact entry2_bias m ρ c q

end Cert.Bridge

end
-- ==== Proof.KValue.lean ====
import proofs.«403315_j6150393168617_2_alg».proof.Proof.Region0
import proofs.«403315_j6150393168617_2_alg».proof.Proof.Region1
import proofs.«403315_j6150393168617_2_alg».proof.Proof.Region2
import proofs.«403315_j6150393168617_2_alg».proof.Proof.Glue0
import proofs.«403315_j6150393168617_2_alg».proof.Proof.Glue1
import proofs.«403315_j6150393168617_2_alg».proof.Proof.Glue2

/-! The kernel program's result as a function of its arguments: region 0's output is the reference's scaled perceptron output;
    the host's gather and scatter-add between the regions are the reference's own; so region 1's output is the reference's scaled
    layer-0 output and region 2's the reference's result. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

/-- The last boundary's contents at the result buffer are the reference's result of the kernel program's own arguments, when
    every label is a row of the table. -/
theorem kernel_out (m : KMem) (ρ : Dev nD → PrngReg) (c : Dev nD)
    (hr : ∀ i : Fin 100000, 0 ≤ (a1 m c (ix1 i)).toInt ∧ (a1 m c (ix1 i)).toInt < 24) :
    (W12 m ρ c (Proc.devRef .tc main_v55) : S100000x128.Idx → EReal) = outR m c := by
  have f0 := final0 (V7 m ρ) c _ _ _ _ _ _ _ _ _ _ (entry0 m ρ c) hr
  have h0 : (W8 m ρ c (Proc.devRef .tc main_v29) : S100000x128.Idx → EReal) = hs0R m c := (W8_arr m ρ c 11).trans f0
  have f1 := final1 (V9 m ρ) c _ _ _ _ _ _ _ _ _ _ _ _ _ (entry1 m ρ c h0)
  have h1 : (W10 m ρ c (Proc.devRef .tc main_v42) : S100000x128.Idx → EReal) = hs1R m c := (W10_arr m ρ c 5).trans f1
  have f2 := final2 (V11 m ρ) c _ _ _ _ _ _ _ _ _ _ _ _ _ _ _ (entry2 m ρ c h1)
  exact (W12_arr m ρ c 4).trans f2

end Cert.Bridge

end
-- ==== Proof.PreRange.lean ====
import proofs.«403315_j6150393168617_2_alg».proof.Proof.Args
import proofs.«403315_j6150393168617_2_alg».proof.Proof.Gen.Pre_finite_inputs
import proofs.«403315_j6150393168617_2_alg».proof.Defs
import Idealize.ShloMosaic.Lib.ReduceAll
import Idealize.ShloMosaic.Lib.StableHlo.Predicate

/-! The precondition's last conjunct read back: every label lies in the label table's rows 0 … 23. -/

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

/-- The last part of the printed precondition is a conjunction whose second operand is the reduction by `and`,
    over all 100000 entries, of the elementwise test `0 ≤ label ∧ label < 24` (two signed word comparisons against
    broadcast constants). When that part is the word 1, every entry passes both comparisons. -/
theorem labels_of_part3 {F : FTy → Type} [FloatOps F] [Cert.Pre_finite_inputs.Facts]
    (x1 : IVec Cert.Pre_finite_inputs.S100000 32) (x14 : FVec F Cert.Pre_finite_inputs.S128 .f32)
    (v48 : IVec Cert.Pre_finite_inputs.S_ 1) (v49 v50 : FVec F Cert.Pre_finite_inputs.S128x128 .f32)
    (j : Cert.Pre_finite_inputs.S_.Idx)
    (e : Cert.Pre_finite_inputs.fn_part3 (F := F) x1 x14 v48 v49 v50 j = 1#1)
    (i : Cert.Pre_finite_inputs.S100000.Idx) :
    0 ≤ (x1 i).toInt ∧ (x1 i).toInt < 24 := by
  unfold Cert.Pre_finite_inputs.fn_part3 at e
  dsimp only at e
  -- the result is `and` of the finiteness tests with the reduction over the labels: keep the second operand
  have e2 := (IntOp.andi_eq_one.1 e).2
  -- a reduction by `and` into the one scalar index that is 1 met a 1 at every index
  haveI : Subsingleton Cert.Pre_finite_inputs.S_.Idx := ⟨fun a b => funext fun d => d.elim0⟩
  have e3 := Host.reduce_andi_all _ _ _ _ j e2 i
  obtain ⟨e4, e5⟩ := IntOp.andi_eq_one.1 e3
  -- a broadcast scalar constant reads as that constant at every index
  have e4' : IntOp.cmpi .sge (x1 i) 0#32 = 1#1 := e4
  have e5' : IntOp.cmpi .slt (x1 i) 24#32 = 1#1 := e5
  have a := IntOp.cmpi_sge.1 e4'
  have b := IntOp.cmpi_slt.1 e5'
  rw [show (0#32 : BitVec 32).toInt = 0 from by decide] at a
  rw [show (24#32 : BitVec 32).toInt = 24 from by decide] at b
  exact ⟨a, b⟩

/-- Under the precondition every label is a row of the 24-row table. -/
theorem label_range (m : KMem) (h : Cert.Pre_KernelIdeal m) (c : Dev nD) (i : Fin 100000) :
    0 ≤ (a1 m c (ix1 i)).toInt ∧ (a1 m c (ix1 i)).toInt < 24 := by
  -- the printed precondition, read at its one scalar index, is its last part applied to the labels
  have h0 := congrFun (h c) ValueIdx.ix0
  exact labels_of_part3 (F := Ideal) (a1 m c) _ _ _ _ ValueIdx.ix0 h0 (ix1 i)

end Cert.Bridge

end
-- ==== Proof.lean ====
/- The certificate of the graph-convolution encoder. Both programs compute, per node, a label-embedding row joined to the node's
   features, a two-layer perceptron with a layer normalisation between the layers, and two graph convolutions normalised by the
   source and destination degrees. The kernel program does the dense part in three grid kernels and leaves the degree counts, the
   edge gather and the edge scatter-add to the host, exactly as the reference does them. On the extended reals the two agree
   wherever every label is a row of the 24-row label table: there the kernel's one-hot product with the zero-padded table reads
   that row, as the reference's gather does; the product of the joined row with the first weight matrix is the sum of the two
   half products; every change of float format is the identity. -/
import proofs.«403315_j6150393168617_2_alg».proof.Defs
import proofs.«403315_j6150393168617_2_alg».proof.Proof.Gen.Kernel
import proofs.«403315_j6150393168617_2_alg».proof.Proof.Gen.Kernel.Skeleton
import proofs.«403315_j6150393168617_2_alg».proof.Proof.Gen.Kernel.Launch
import proofs.«403315_j6150393168617_2_alg».proof.Proof.Gen.Kernel.Points
import proofs.«403315_j6150393168617_2_alg».proof.Proof.Gen.Kernel.Frame
import proofs.«403315_j6150393168617_2_alg».proof.Proof.Gen.KernelIdeal
import proofs.«403315_j6150393168617_2_alg».proof.Proof.Gen.KernelIdeal.Skeleton
import proofs.«403315_j6150393168617_2_alg».proof.Proof.Gen.KernelIdeal.Launch
import proofs.«403315_j6150393168617_2_alg».proof.Proof.Gen.KernelIdeal.Points
import proofs.«403315_j6150393168617_2_alg».proof.Proof.Gen.KernelIdeal.Frame
import proofs.«403315_j6150393168617_2_alg».proof.Proof.Gen.ReferenceIdeal
import proofs.«403315_j6150393168617_2_alg».proof.Proof.RefRun
import proofs.«403315_j6150393168617_2_alg».proof.Proof.RefRead
import proofs.«403315_j6150393168617_2_alg».proof.Proof.Gen.Pre_finite_inputs
import proofs.«403315_j6150393168617_2_alg».proof.Proof.KRun
import proofs.«403315_j6150393168617_2_alg».proof.Proof.KValue
import proofs.«403315_j6150393168617_2_alg».proof.Proof.PreRange
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's result of the (shared) arguments. -/
theorem algebraic : Cert.algebraic_KernelIdeal_ReferenceIdeal := by
  intro m ρ m' ρ' hpre hagree
  refine ⟨fun c => Cert.Bridge.outR m c, ?_, ?_⟩
  · exact (θ_run Cert.KernelIdeal.defs _ _).mono
      (fun r h c => ⟨(h c).1.trans (Cert.Bridge.kernel_out m ρ c (Cert.Bridge.label_range m hpre c)), (h c).2⟩)
      (Cert.KernelIdeal.RunResult.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    rw [Cert.ReferenceIdeal.ReadP.val_main_v101_eq, e0, e1, e2, e3, e4, e5, e6, e7, e8, e9, e10, e11, e12, e13, e14]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
